-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S32768x2048 : Shape := ⟨2, ![32768, 2048]⟩
abbrev S256 : Shape := ⟨1, ![256]⟩
abbrev S32768 : Shape := ⟨1, ![32768]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg4 : IVec S32768 32) (main_v13 : IVec S_ 1) (main_v15 : IVec S32768 1) (main_c_5 : IVec S_ 32) : IVec S_ 1 :=
  let main_v16 : IVec S32768 32 := broadcastInDim S32768 ![] bcast_S_S32768 main_c_5
  let main_v17 : IVec S32768 1 := cmpi .slt main_arg4 main_v16
  let main_v18 : IVec S32768 1 := andi main_v15 main_v17
  let main_c_6 : IVec S_ 1 := constantI S_ 1 1#1
  let main_v19 : IVec S_ 1 := (fun x v => Host.reduce IntOp.andi x v reducesTo_S32768_S_d0 h_S_) main_v18 main_c_6
  let main_v20 : IVec S_ 1 := andi main_v13 main_v19
  main_v20

def fn {F : FTy → Type} [FloatOps F] (main_arg0 : FVec F S256x2048 .f32) (main_arg1 : FVec F S32768x2048 .f32) (main_arg2 : FVec F S32768x2048 .f32) (main_arg3 : IVec S256 32) (main_arg4 : IVec S32768 32) (main_arg5 : IVec S32768 32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S32768x2048 .f32 := Host.absf main_arg2
  let main_cst_2 : FVec F S_ .f32 := constant S_ .f32 0x7F800000#32
  let main_v10 : FVec F S32768x2048 .f32 := broadcastInDim S32768x2048 ![] bcast_S_S32768x2048 main_cst_2
  let main_v11 : IVec S32768x2048 1 := cmpf .olt main_v9 main_v10
  let main_c_3 : IVec S_ 1 := constantI S_ 1 1#1
  let main_v12 : IVec S_ 1 := (fun x v => Host.reduce IntOp.andi x v reducesTo_S32768x2048_S_d0_1 h_S_) main_v11 main_c_3
  let main_v13 : IVec S_ 1 := andi main_v8 main_v12
  let main_c_4 : IVec S_ 32 := constantI S_ 32 0#32
  let main_v14 : IVec S32768 32 := broadcastInDim S32768 ![] bcast_S_S32768 main_c_4
  let main_v15 : IVec S32768 1 := cmpi .sge main_arg4 main_v14
  let main_c_5 : IVec S_ 32 := constantI S_ 32 32768#32
  fn_part1 (F := F) main_arg4 main_v13 main_v15 main_c_5
-- ==== Kernel.lean ====
abbrev S256x2048 : Shape := ⟨2, ![256, 2048]⟩
abbrev S32768x2048 : Shape := ⟨2, ![32768, 2048]⟩
abbrev S256 : Shape := ⟨1, ![256]⟩
abbrev S32768 : Shape := ⟨1, ![32768]⟩
abbrev S_ : Shape := ⟨0, ![]⟩
abbrev S256x1 : Shape := ⟨2, ![256, 1]⟩
abbrev S2x256x1 : Shape := ⟨3, ![2, 256, 1]⟩
abbrev S1024x2048 : Shape := ⟨2, ![1024, 2048]⟩
abbrev S1x256x1 : Shape := ⟨3, ![1, 256, 1]⟩
abbrev S256x1024 : Shape := ⟨2, ![256, 1024]⟩

abbrev nBuf : Space → Nat
  | .hbm => 42
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S32768x2048, .f32⟩
  | .hbm, ⟨2, _⟩ => ⟨S32768x2048, .f32⟩
  | .hbm, ⟨3, _⟩ => ⟨S256, .i32⟩
  | .hbm, ⟨4, _⟩ => ⟨S32768, .i32⟩
  | .hbm, ⟨5, _⟩ => ⟨S32768, .i32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S256x2048, .bf16⟩
  | .hbm, ⟨16, _⟩ => ⟨S256x1, .i32⟩
  | .hbm, ⟨17, _⟩ => ⟨S2x256x1, .f32⟩
  | .hbm, ⟨18, _⟩ => ⟨S2x256x1, .f32⟩
  | .hbm, ⟨19, _⟩ => ⟨S1x256x1, .f32⟩
  | .hbm, ⟨20, _⟩ => ⟨S256, .f32⟩
  | .hbm, ⟨21, _⟩ => ⟨S1x256x1, .f32⟩
  | .hbm, ⟨22, _⟩ => ⟨S256, .f32⟩
  | .hbm, ⟨23, _⟩ => ⟨S256, .f32⟩
  | .hbm, ⟨24, _⟩ => ⟨S1x256x1, .f32⟩
  | .hbm, ⟨25, _⟩ => ⟨S256, .f32⟩
  | .hbm, ⟨26, _⟩ => ⟨S1x256x1, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S256x2048, .bf16⟩
  | .local _ .vmem, ⟨1, _⟩ => ⟨S1024x2048, .f32⟩
  | .local _ .vmem, ⟨2, _⟩ => ⟨S1024x2048, .f32⟩
  | .local _ .vmem, ⟨3, _⟩ => ⟨S256x1, .i32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S256 : S_.BroadcastsInDim S256 (![] : Fin 0 → Fin S256.rank)
  bcast_S256_S256x1_0 : S256.BroadcastsInDim S256x1 (![0] : Fin 1 → Fin S256x1.rank)
  bitsLt_bf16_f32 : FTy.bits .bf16 < FTy.bits .f32
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  reduces_S256x1024_S256 : S256x1024.Reduces [1] S256
  shapeCasts_S256_S256x1 : S256.ShapeCasts S256x1
  iota_S256x1024_d1_w32 : S256x1024.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  slices_S2x256x1_S1x256x1_0_0_0 : S2x256x1.Slices ![0, 0, 0] S1x256x1
  shapeCasts_S1x256x1_S256 : S1x256x1.ShapeCasts S256
  slices_S2x256x1_S1x256x1_1_0_0 : S2x256x1.Slices ![1, 0, 0] S1x256x1
  reducesTo_S256_S_d0 : S256.ReducesTo [0] S_
  h_S_ : 0 < S_.numel
  gather_S32768_S256x1_S256_n_0_n_n_0_1_1_wf : GatherDims.WF S32768 S256x1 S256 [] [0] [] [0] [] 1 ![1]
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .bf16 = 32 ∨ (Rect.block (s := S256x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x2048.size a
  hwx0_1 : ∀ i : grid0.Coords, EltTy.bits .f32 = 32 ∨ (Rect.block (s := S32768x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x256x1.size a
  hwx0_3 : ∀ i : grid0.Coords, EltTy.bits .f32 = 32 ∨ (Rect.block (s := S2x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x256x1.size a
  hwx0_4 : ∀ i : grid0.Coords, EltTy.bits .f32 = 32 ∨ (Rect.block (s := S2x256x1) S1x256x1.size (cc0_transform_4 i) (hinb0_4 i)).WholeWords (EltTy.packing .f32)

variable [Facts₀]

def gather_S32768_S256x1_S256_n_0_n_n_0_1_1 : GatherDims S32768 S256x1 S256 where
  offsetDims := []
  collapsedSliceDims := [0]
  operandBatchingDims := []
  startIndicesBatchingDims := []
  startIndexMap := [0]
  indexVectorDim := 1
  sliceSizes := ![1]
  wf := gather_S32768_S256x1_S256_n_0_n_n_0_1_1_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v7) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1x256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1x256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x2048 : Shape := ⟨2, ![256, 2048]⟩
abbrev S32768x2048 : Shape := ⟨2, ![32768, 2048]⟩
abbrev S256 : Shape := ⟨1, ![256]⟩
abbrev S32768 : Shape := ⟨1, ![32768]⟩
abbrev S_ : Shape := ⟨0, ![]⟩
abbrev S256x1 : Shape := ⟨2, ![256, 1]⟩
abbrev S2048x32768 : Shape := ⟨2, ![2048, 32768]⟩
abbrev S256x32768 : Shape := ⟨2, ![256, 32768]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S32768x2048, .f32⟩
  | .hbm, ⟨2, _⟩ => ⟨S32768x2048, .f32⟩
  | .hbm, ⟨3, _⟩ => ⟨S256, .i32⟩
  | .hbm, ⟨4, _⟩ => ⟨S32768, .i32⟩
  | .hbm, ⟨5, _⟩ => ⟨S32768, .i32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S2048x32768, .f32⟩
  | .hbm, ⟨16, _⟩ => ⟨S256x32768, .f32⟩
  | .hbm, ⟨17, _⟩ => ⟨S_, .f32⟩
  | .hbm, ⟨18, _⟩ => ⟨S256x32768, .f32⟩
  | .hbm, ⟨19, _⟩ => ⟨S256x32768, .f32⟩
  | .hbm, ⟨20, _⟩ => ⟨S256x32768, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x32768, .f32⟩
  | .hbm, ⟨28, _⟩ => ⟨S256x32768, .f32⟩
  | .hbm, ⟨29, _⟩ => ⟨S_, .f32⟩
  | .hbm, ⟨30, _⟩ => ⟨S256x32768, .f32⟩
  | .hbm, ⟨31, _⟩ => ⟨S256x32768, .f32⟩
  | .hbm, ⟨32, _⟩ => ⟨S256x32768, .f32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S256x1x1, .i32⟩
  | .hbm, ⟨42, _⟩ => ⟨S1, .i32⟩
  | .hbm, ⟨43, _⟩ => ⟨S_, .i32⟩
  | .hbm, ⟨44, _⟩ => ⟨S256x1x1, .i32⟩
  | .hbm, ⟨45, _⟩ => ⟨S256x1x1, .i1⟩
  | .hbm, ⟨46, _⟩ => ⟨S1x1x1, .i32⟩
  | .hbm, ⟨47, _⟩ => ⟨S256x1x1, .i32⟩
  | .hbm, ⟨48, _⟩ => ⟨S256x1x1, .i1⟩
  | .hbm, ⟨49, _⟩ => ⟨S256x1x1, .i1⟩
  | .hbm, ⟨50, _⟩ => ⟨S_, .i1⟩
  | .hbm, ⟨51, _⟩ => ⟨S256x1, .i1⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  transposes_S32768x2048_S2048x32768_1_0 : S32768x2048.Transposes [1, 0] S2048x32768
  bcast_S_S256x32768 : S_.BroadcastsInDim S256x32768 (![] : Fin 0 → Fin S256x32768.rank)
  reducesTo_S256x32768_S256_d1 : S256x32768.ReducesTo [1] S256
  h_S_ : 0 < S_.numel
  bcast_S_S256x1 : S_.BroadcastsInDim S256x1 (![] : Fin 0 → Fin S256x1.rank)
  bcast_S256x1_S256x32768_0_1 : S256x1.BroadcastsInDim S256x32768 (![0, 1] : Fin 2 → Fin S256x32768.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  reducesTo_S256_S_d0 : S256.ReducesTo [0] S_
  gather_S32768_S256x1_S256_n_0_n_n_0_1_1_wf : GatherDims.WF S32768 S256x1 S256 [] [0] [] [0] [] 1 ![1]
  dot_S256x2048_S2048x32768_S256x32768_1_0_0_1_n_n_wf : DotDims.WF S256x2048 S2048x32768 S256x32768 [1] [0] [0] [1] [] []
  gather_S256x32768_S256x1x1_S256x1_n_1_0_0_1_2_11_wf : GatherDims.WF S256x32768 S256x1x1 S256x1 [] [1] [0] [1] [0] 2 ![1, 1]

variable [Facts₀]

def gather_S32768_S256x1_S256_n_0_n_n_0_1_1 : GatherDims S32768 S256x1 S256 where
  offsetDims := []
  collapsedSliceDims := [0]
  operandBatchingDims := []
  startIndicesBatchingDims := []
  startIndexMap := [0]
  indexVectorDim := 1
  sliceSizes := ![1]
  wf := gather_S32768_S256x1_S256_n_0_n_n_0_1_1_wf
def dot_S256x2048_S2048x32768_S256x32768_1_0_0_1_n_n : DotDims S256x2048 S2048x32768 S256x32768 where
  lhsContracting := [1]
  rhsContracting := [0]
  lhsNonContracting := [0]
  rhsNonContracting := [1]
  lhsBatch := []
  rhsBatch := []
  wf := dot_S256x2048_S2048x32768_S256x32768_1_0_0_1_n_n_wf
def gather_S256x32768_S256x1x1_S256x1_n_1_0_0_1_2_11 : GatherDims S256x32768 S256x1x1 S256x1 where
  offsetDims := []
  collapsedSliceDims := [1]
  operandBatchingDims := [0]
  startIndicesBatchingDims := [0]
  startIndexMap := [1]
  indexVectorDim := 2
  sliceSizes := ![1, 1]
  wf := gather_S256x32768_S256x1x1_S256x1_n_1_0_0_1_2_11_wf

class Facts : Prop extends Facts₀ where

variable [Facts]
-- ==== Proof.KPieces.lean ====
/-
  What one run of the kernel body leaves in its two output blocks, as values.

  Each output block is stored whole. At a core's first block (the reset case) the body first stores the zero block, reads
  it back, and stores the update of that zero block; elsewhere it stores the update of what the block held before. The
  update of the first output adds the block's row sums of exponentials; the update of the second adds the row sums of
  the exponentials masked to the target column.
-/
import proofs.«427086_j91233695301908_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a core's first block, the first output holds its previous contents updated by the block. -/
theorem out_B_3 (c : Dev nD) (i : grid0.Coords) (a2 : Memref sig .tc .vmem S256x2048 .bf16) (h2 : a2.IsWhole)
    (a3 : Memref sig .tc .vmem S1024x2048 .f32) (h3 : a3.IsWhole) (a4 : Memref sig .tc .vmem S256x1 .i32) (h4 : a4.IsWhole)
    (a5 : Memref sig .tc .vmem S1x256x1 .f32) (h5 : a5.IsWhole) (a6 : Memref sig .tc .vmem S1x256x1 .f32) (h6 : a6.IsWhole)
    (hc : ¬cond0_0 i) (x0 : Vec F S256x2048 .bf16) (x1 : Vec F S1024x2048 .f32) (x2 : Vec F S256x1 .i32)
    (xo3 xo4 : Vec F S1x256x1 .f32) :
    out0_B_3 c i a2 h2 a3 h3 a4 h4 a5 h5 a6 h6 hc x0 x1 x2 xo3 xo4 = k0_pay5 x0 x1 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S256x2048) hz2, View.ld_unit_zero (S := S1024x2048) hz2, View.ld_unit_zero (S := S256x1) hz2,
    View.ld_unit_zero (S := S1x256x1) hz3]

/-- Away from a core's first block, the second output holds its previous contents updated by the block. -/
theorem out_B_4 (c : Dev nD) (i : grid0.Coords) (a2 : Memref sig .tc .vmem S256x2048 .bf16) (h2 : a2.IsWhole)
    (a3 : Memref sig .tc .vmem S1024x2048 .f32) (h3 : a3.IsWhole) (a4 : Memref sig .tc .vmem S256x1 .i32) (h4 : a4.IsWhole)
    (a5 : Memref sig .tc .vmem S1x256x1 .f32) (h5 : a5.IsWhole) (a6 : Memref sig .tc .vmem S1x256x1 .f32) (h6 : a6.IsWhole)
    (hc : ¬cond0_0 i) (x0 : Vec F S256x2048 .bf16) (x1 : Vec F S1024x2048 .f32) (x2 : Vec F S256x1 .i32)
    (xo3 xo4 : Vec F S1x256x1 .f32) :
    out0_B_4 c i a2 h2 a3 h3 a4 h4 a5 h5 a6 h6 hc x0 x1 x2 xo3 xo4 = k0_pay1 (k0_pay6 xo4) (k0_pay7 i x0 x1 x2) := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S256x2048) hz2, View.ld_unit_zero (S := S1024x2048) hz2, View.ld_unit_zero (S := S256x1) hz2,
    View.ld_unit_zero (S := S1x256x1) hz3]

/-- At a core's first block, the first output holds the zero block updated by the block. -/
theorem out_A_3 (c : Dev nD) (i : grid0.Coords) (a2 : Memref sig .tc .vmem S256x2048 .bf16) (h2 : a2.IsWhole)
    (a3 : Memref sig .tc .vmem S1024x2048 .f32) (h3 : a3.IsWhole) (a4 : Memref sig .tc .vmem S256x1 .i32) (h4 : a4.IsWhole)
    (a5 : Memref sig .tc .vmem S1x256x1 .f32) (h5 : a5.IsWhole) (a6 : Memref sig .tc .vmem S1x256x1 .f32) (h6 : a6.IsWhole)
    (hc : cond0_0 i) (x0 : Vec F S256x2048 .bf16) (x1 : Vec F S1024x2048 .f32) (x2 : Vec F S256x1 .i32) :
    out0_A_3 c i a2 h2 a3 h3 a4 h4 a5 h5 a6 h6 hc x0 x1 x2 = k0_pay5 x0 x1 (k0_pay2 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x256x1) hz3, View.readCov_unit_zero (S := S1x256x1) _ hz3]
  simp only [View.readAt_eq_ld, h2.read_unread, h3.read_unread, h4.read_unread, h5.read_unread, h6.read_unread,
    View.ld_unit_zero (S := S256x2048) hz2, View.ld_unit_zero (S := S1024x2048) hz2, View.ld_unit_zero (S := S256x1) hz2,
    View.ld_unit_zero (S := S1x256x1) hz3]

/-- At a core's first block, the second output holds the zero block updated by the block. -/
theorem out_A_4 (c : Dev nD) (i : grid0.Coords) (a2 : Memref sig .tc .vmem S256x2048 .bf16) (h2 : a2.IsWhole)
    (a3 : Memref sig .tc .vmem S1024x2048 .f32) (h3 : a3.IsWhole) (a4 : Memref sig .tc .vmem S256x1 .i32) (h4 : a4.IsWhole)
    (a5 : Memref sig .tc .vmem S1x256x1 .f32) (h5 : a5.IsWhole) (a6 : Memref sig .tc .vmem S1x256x1 .f32) (h6 : a6.IsWhole)
    (hc : cond0_0 i) (x0 : Vec F S256x2048 .bf16) (x1 : Vec F S1024x2048 .f32) (x2 : Vec F S256x1 .i32) :
    out0_A_4 c i a2 h2 a3 h3 a4 h4 a5 h5 a6 h6 hc x0 x1 x2 = k0_pay1 (k0_pay6 (k0_pay3 (F := F))) (k0_pay7 i x0 x1 x2) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x256x1) hz3, View.readCov_unit_zero (S := S1x256x1) _ hz3]
  simp only [View.readAt_eq_ld, h2.read_unread, h3.read_unread, h4.read_unread, h5.read_unread, h6.read_unread,
    View.ld_unit_zero (S := S256x2048) hz2, View.ld_unit_zero (S := S1024x2048) hz2, View.ld_unit_zero (S := S256x1) hz2,
    View.ld_unit_zero (S := S1x256x1) hz3]

end Cert.KernelIdeal.Pieces

end
-- ==== Proof.Spec.lean ====
/-
  The loss both programs compute, as one function on the extended reals.

  For queries X (256 rows of 2048 entries), clusters C (32768 rows of 2048 entries) and one target word per query:
  the similarity of query i and cluster j is the inner product of their rows; it is scaled by the inverse temperature,
  exponentiated, and normalised by the row's sum of exponentials plus a small constant; the loss is minus the mean over
  the queries of the logarithm (of that quotient plus the small constant) at the query's target column.

  The inverse temperature is the exact reciprocal of the binary value 13421773 / 2^28 the divisor's word denotes:
  dividing by that value and multiplying by its reciprocal are one function on every extended real.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The queries' shape, the clusters' shape. -/
abbrev SQ : Shape := ⟨2, ![256, 2048]⟩
abbrev SC : Shape := ⟨2, ![32768, 2048]⟩

/-- The inverse temperature: 2^28 / 13421773. -/
def invT : EReal := ((268435456 / 13421773 : ℝ) : EReal)

/-- The temperature's word denotes 13421773 / 2^28. -/
theorem ofBits_temp : Ideal.ofBits .f32 0x3D4CCCCD#32 = ((13421773 / 268435456 : ℝ) : EReal) := by
  simp [Ideal.ofBits, Ideal.ieee, -EReal.coe_mul]; norm_num

/-- Dividing by the temperature is multiplying by its reciprocal, on every extended real. -/
theorem div_temp (x : EReal) : Ideal.div x (Ideal.ofBits .f32 0x3D4CCCCD#32) = x * invT := by
  rw [ofBits_temp, Ideal.div_coe (by norm_num : (13421773 / 268435456 : ℝ) ≠ 0)]
  unfold invT
  congr 2
  norm_num

/-- The small constant added to the normaliser and under the logarithm. -/
abbrev eps : EReal := Ideal.ofBits .f32 0x358637BD#32

/-- The exponential of the scaled similarity of query i and cluster j. -/
def ex (X : SQ.Idx → EReal) (C : SC.Idx → EReal) (i : Fin 256) (j : Fin 32768) : EReal :=
  Ideal.exp ((∑ k : Fin 2048, X (ix2 i k) * C (ix2 j k)) * invT)

/-- The column a target word selects: the word read signed, clamped into the row. -/
def col (w : BitVec 32) : Fin 32768 := ⟨min w.toInt.toNat 32767, by omega⟩

/-- A word below 32768 selects its own value. -/
theorem col_val {w : BitVec 32} (h : w.toNat < 32768) : (col w).val = w.toNat := by
  have hi : w.toInt = w.toNat := by
    rw [BitVec.toInt_eq_msb_cond, BitVec.msb_eq_false_iff_two_mul_lt.mpr (by omega)]; simp
  show min w.toInt.toNat 32767 = w.toNat
  rw [hi]; simp; omega

/-- Query i's term: the logarithm of the normalised exponential at column c, plus the small constant. -/
def term (X : SQ.Idx → EReal) (C : SC.Idx → EReal) (i : Fin 256) (c : Fin 32768) : EReal :=
  Ideal.log (Ideal.div (ex X C i c) ((∑ j : Fin 32768, ex X C i j) + eps) + eps)

/-- The loss: minus the mean of the queries' terms at their targets. -/
def loss (X : SQ.Idx → EReal) (C : SC.Idx → EReal) (t : Fin 256 → BitVec 32) : EReal :=
  -(Ideal.div (∑ i : Fin 256, term X C i (col (t i))) (Ideal.ofBits .f32 0x43800000#32))

end Cert.Loss

end
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.KernelPay.lean ====
/-
  The kernel body's stored values read at an entry, on the extended reals.
-/
import proofs.«427086_j91233695301908_3_alg».proof.Proof.Spec
import proofs.«427086_j91233695301908_3_alg».proof.Proof.Gen.KernelIdeal.Skeleton
import proofs.«427086_j91233695301908_3_alg».proof.Proof.LibTransposedRhs
import proofs.«427086_j91233695301908_3_alg».proof.Proof.LibLayout2
import Idealize.ShloMosaic.PureOps.IdealRules
import Idealize.ShloMosaic.PureOps.Ideal.Laws
import Idealize.ShloMosaic.Lib.ValueLayout
import Idealize.ShloMosaic.Lib.Pipeline.Value
import Idealize.ShloMosaic.Lib.StableHlo.Predicate

noncomputable section

namespace Cert.KernelPay

open Idealize.ShloMosaic Idealize.ShloMosaic.ValueIdx Cert.KernelIdeal Cert.KernelIdeal.Gen

/-- The exponential of the scaled inner product of query row r with row j of one block of clusters. -/
def bex (x0 : Vec Ideal S256x2048 .bf16) (x1 : Vec Ideal S1024x2048 .f32) (r : Fin 256) (j : Fin 1024) : EReal :=
  Ideal.exp ((∑ k : Fin 2048, (x0 (ix2 r k) : EReal) * (x1 (ix2 j k) : EReal)) * Cert.Loss.invT)

/-- The reset value of the sum of exponentials is the zero word. -/
theorem pay2_apply (r : Fin 256) :
    (k0_pay2 (F := Ideal)) (ix3 (0 : Fin 1) r (0 : Fin 1)) = Ideal.ofBits .f32 0x00000000#32 := by
  -- a column of one constant, recast with a leading unit axis: entry (0, r, 0) is the column's entry (r, 0)
  unfold k0_pay2
  exact shapeCast_ab_1ab_apply _ _ 0 r 0

/-- The reset value of the masked sum is the zero word. -/
theorem pay3_apply (r : Fin 256) :
    (k0_pay3 (F := Ideal)) (ix3 (0 : Fin 1) r (0 : Fin 1)) = Ideal.ofBits .f32 0x00000000#32 := by
  unfold k0_pay3
  exact shapeCast_ab_1ab_apply _ _ 0 r 0

/-- The named scale is the inverse temperature 2^28 / 13421773, by the table of named constants. -/
theorem inv_temp : Named.named (F := Ideal) Cert.KernelIdeal.κ "inv_temp" (φ := .f32) 0x41A00000#32 = Cert.Loss.invT :=
  IdealRules.named_const.ideal_named_scalar _ _ _ _ rfl

/-- The block of exponentials at (r, j): the product of the queries with the block of clusters, both contracted on
    their second axis and accumulated into zero, is at (r, j) the inner product of query row r and cluster row j (a
    change of format and a recast to the same shape are the identity on the extended reals); it is scaled by the
    inverse temperature and exponentiated, entry by entry. -/
theorem pay4_apply (x0 : Vec Ideal S256x2048 .bf16) (x1 : Vec Ideal S1024x2048 .f32) (r : Fin 256) (j : Fin 1024) :
    k0_pay4 (F := Ideal) x0 x1 (ix2 r j) = bex x0 x1 r j := by
  unfold k0_pay4 bex
  show Ideal.exp (_ * _) = _
  refine congrArg Ideal.exp ?_
  refine congrArg₂ (· * ·) ?_ inv_temp
  refine (Cert.LibTransposedRhs.matmul_transposedRhs_zero_any 256 2048 1024 _ _ r j).trans ?_
  refine Finset.sum_congr rfl fun k _ => ?_
  rw [shapeCast_self]; rfl

/-- The sum along the columns of a 256 x 1024 array, at row r, is the sum over j of its entries (r, j): the row index
    with the column j put back is (r, j). -/
theorem rowsum_apply (w : FVec Ideal S256x1024 .f32) (hφ : FKind.Formats .f32)
    (hacc : (0x00000000#32 : BitVec 32) = FKind.add.neutral .f32 hφ) (r : Fin 256) :
    multiReduction .add [1] S256 w 0x00000000#32 reduces_S256x1024_S256 hφ hacc (ix1 r) = ∑ j : Fin 1024, w (ix2 r j) := by
  refine (Ideal.multiReduction_add_single w _ reduces_S256x1024_S256 hφ hacc (ix1 r)).trans ?_
  refine Finset.sum_congr rfl fun k _ => congrArg w ?_
  funext a
  match a with
  | ⟨0, _⟩ => rfl
  | ⟨1, _⟩ => rfl

/-- The stored sum of exponentials: the running value plus the block's exponentials of the row. -/
theorem pay5_apply (x0 : Vec Ideal S256x2048 .bf16) (x1 : Vec Ideal S1024x2048 .f32) (v : Vec Ideal S1x256x1 .f32) (r : Fin 256) :
    k0_pay5 (F := Ideal) x0 x1 v (ix3 (0 : Fin 1) r (0 : Fin 1))
      = (v (ix3 (0 : Fin 1) r (0 : Fin 1)) : EReal) + ∑ j : Fin 1024, bex x0 x1 r j := by
  -- entry (0, r, 0) of the recast column is its entry (r, 0): the running value's entry (0, r, 0) plus the row sum at r
  unfold k0_pay5
  refine (shapeCast_ab_1ab_apply _ _ 0 r 0).trans ?_
  show _ + _ = _
  refine congrArg₂ (· + ·) (shapeCast_1ab_ab_apply _ _ r 0) ?_
  refine (Cert.LibLayout2.shapeCast_a_a1_apply _ _ r 0).trans ?_
  refine (rowsum_apply _ _ _ r).trans ?_
  exact Finset.sum_congr rfl fun j _ => pay4_apply x0 x1 r j

/-- The column's number as a word: for a < 2, b < 16 and j < 1024 the 32-bit products and sums
    ((a * 16 + b) * 1024) + j do not wrap around, every value staying below 2^15 < 2^32. -/
theorem lane_word (a b j : Nat) (ha : a < 2) (hb : b < 16) (hj : j < 1024) :
    IntOp.addi (Scalar.muli (Scalar.addi (Scalar.muli (BitVec.ofNat 32 a) 16#32) (BitVec.ofNat 32 b)) 1024#32) (BitVec.ofNat 32 j)
      = BitVec.ofNat 32 ((a * 16 + b) * 1024 + j) := by
  apply BitVec.eq_of_toNat_eq
  simp only [IntOp.addi, Scalar.muli, Scalar.addi, IntOp.muli, BitVec.toNat_add, BitVec.toNat_mul, BitVec.toNat_ofNat]
  omega

/-- The word of a number below 2^32 is a given word exactly when the number is that word's value. -/
theorem word_eq_iff (n : Nat) (hn : n < 2 ^ 32) (w : BitVec 32) : BitVec.ofNat 32 n = w ↔ n = w.toNat := by
  constructor
  · intro h; rw [← h, BitVec.toNat_ofNat, Nat.mod_eq_of_lt hn]
  · intro h; rw [h, BitVec.ofNat_toNat, BitVec.setWidth_eq]

/-- The masked block at (r, j): the exponential at (r, j) where the column's number, block number times 1024 plus j,
    is row r's target word, and zero elsewhere. The column's number is the block's offset word plus the count along
    the columns; the target column broadcast over the columns reads row r's one entry. -/
theorem pay7_apply (i : grid0.Coords) (x0 : Vec Ideal S256x2048 .bf16) (x1 : Vec Ideal S1024x2048 .f32)
    (x2 : Vec Ideal S256x1 .i32) (r : Fin 256) (j : Fin 1024) :
    k0_pay7 (F := Ideal) i x0 x1 x2 (ix2 r j)
      = if ((i 0).val * 16 + (i 1).val) * 1024 + j.val = (x2 (ix2 r (0 : Fin 1))).toNat then bex x0 x1 r j else 0 := by
  have e1 : iota .tc S256x1024 32 [1] iota_S256x1024_d1_w32 (ix2 r j) = BitVec.ofNat 32 j.val :=
    iota_single_apply _ _ _ _ _ _
  have e2 : broadcastTo S256x1024 (shapeCast S256x1 x2 shapeCasts_S256x1_S256x1) broadcasts_S256x1_S256x1024 (ix2 r j)
      = x2 (ix2 r (0 : Fin 1)) := by
    rw [shapeCast_self]
    exact broadcastTo_apply _ _ _ (ix2 r (0 : Fin 1)) (fun a => match a with | ⟨0, _⟩ => rfl | ⟨1, _⟩ => rfl)
  unfold k0_pay7
  show Scalar.select (IntOp.cmpi .eq (IntOp.addi _ (iota .tc S256x1024 32 [1] iota_S256x1024_d1_w32 (ix2 r j)))
      (broadcastTo S256x1024 (shapeCast S256x1 x2 shapeCasts_S256x1_S256x1) broadcasts_S256x1_S256x1024 (ix2 r j)))
      (k0_pay4 (F := Ideal) x0 x1 (ix2 r j)) (Ideal.ofBits .f32 0x00000000#32) = _
  rw [e1, e2, pay4_apply, Ideal.ofBits_zero_f32]
  have h0 : (i 0).val < 2 := (i 0).isLt
  have h1 : (i 1).val < 16 := (i 1).isLt
  rw [broadcast_apply, lane_word _ _ _ h0 h1 j.isLt]
  -- a select on a one-bit word is the choice on its being 1; the comparison is 1 exactly when the two words are equal
  show (if _ = 1#1 then _ else _) = _
  refine if_congr ?_ rfl rfl
  exact StableHlo.Predicate.cmpi_eq_iff.trans (word_eq_iff _ (by omega) _)

/-- The stored masked sum: the running value plus the block's exponentials of the row at the columns whose number
    (block number times 1024 plus the column inside the block) is the row's target word. -/
theorem pay1_apply (i : grid0.Coords) (x0 : Vec Ideal S256x2048 .bf16) (x1 : Vec Ideal S1024x2048 .f32)
    (x2 : Vec Ideal S256x1 .i32) (v : Vec Ideal S1x256x1 .f32) (r : Fin 256) :
    k0_pay1 (F := Ideal) (k0_pay6 (F := Ideal) v) (k0_pay7 (F := Ideal) i x0 x1 x2) (ix3 (0 : Fin 1) r (0 : Fin 1))
      = (v (ix3 (0 : Fin 1) r (0 : Fin 1)) : EReal) + ∑ j : Fin 1024,
          if ((i 0).val * 16 + (i 1).val) * 1024 + j.val = (x2 (ix2 r (0 : Fin 1))).toNat then bex x0 x1 r j else 0 := by
  unfold k0_pay1 k0_pay6
  refine (shapeCast_ab_1ab_apply _ _ 0 r 0).trans ?_
  show _ + _ = _
  refine congrArg₂ (· + ·) (shapeCast_1ab_ab_apply _ _ r 0) ?_
  refine (Cert.LibLayout2.shapeCast_a_a1_apply _ _ r 0).trans ?_
  refine (rowsum_apply _ _ _ r).trans ?_
  exact Finset.sum_congr rfl fun j _ => pay7_apply i x0 x1 x2 r j

end Cert.KernelPay

end
-- ==== Proof.KBlocks.lean ====
/-
  The kernel's three input windows, block by block, and the arrays they are blocks of.

  The queries window and the targets window have one block, the whole array, at every grid point. The clusters window's
  block at grid point t is rows 1024 t to 1024 t + 1023 of the clusters. The queries array is the queries argument after a
  change of float format; the clusters array is the clusters argument; the targets array is the column of the labels read
  at the positions, the same term the reference computes.
-/
import proofs.«427086_j91233695301908_3_alg».proof.Proof.Gen.KernelIdeal.Frame
import proofs.«427086_j91233695301908_3_alg».proof.Proof.Gen.ReferenceIdeal.Read
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F] [Named F]
variable (m : (ℓ : Loc nD τ sig) → Buf (Elt F) ℓ)

/-- The three arrays as the kernel finds them. -/
abbrev qarr (c : Dev nD) : Vec F S256x2048 .bf16 := V m c main_v7
abbrev carr (c : Dev nD) : Vec F S32768x2048 .f32 := V m c main_arg2
abbrev tarr (c : Dev nD) : Vec F S256x1 .i32 := V m c main_v8

/-- The three input blocks at grid point t. -/
abbrev qblk (c : Dev nD) (t : Fin cfg0.N) : Vec F S256x2048 .bf16 := iblk m c 0 t
abbrev cblk (c : Dev nD) (t : Fin cfg0.N) : Vec F S1024x2048 .f32 := iblk m c 1 t
abbrev tblk (c : Dev nD) (t : Fin cfg0.N) : Vec F S256x1 .i32 := iblk m c 2 t

/-- The queries window's block index is (0, 0) at every grid point: decided over the grid. -/
theorem index0 : ∀ (t : Fin cfg0.N) (a : Fin 2), win0_0.index t a = 0 :=
  (by decide +kernel : ∀ (t : Fin grid0.N) (a : Fin 2), win0_0.index t a = 0)

/-- The clusters window's block index at grid point t is (t, 0): decided over the grid. -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The targets window's block index is (0, 0) at every grid point: decided over the grid. -/
theorem index2 : ∀ (t : Fin cfg0.N) (a : Fin 2), win0_2.index t a = 0 :=
  (by decide +kernel : ∀ (t : Fin grid0.N) (a : Fin 2), win0_2.index t a = 0)

/-- A grid point's two coordinates are its number's quotient and remainder by 16. -/
theorem coords_val (t : Fin cfg0.N) : (grid0.coords t 0).val * 16 + (grid0.coords t 1).val = t.val := by
  -- 32 points on a 2 × 16 grid, the last coordinate fastest: decided over the grid
  exact (by decide +kernel : ∀ t : Fin grid0.N, (grid0.coords t 0).val * 16 + (grid0.coords t 1).val = t.val) t

/-- The queries block is the whole queries array. -/
theorem qblk_eq (c : Dev nD) (t : Fin cfg0.N) : qblk m c t = qarr m c := by
  funext y
  show iblk m c 0 t y = V m c main_v7 y
  unfold iblk
  rw [View.read_apply]
  show V m c main_v7 (((cfg0.win 0).blk t).view.emb y) = V m c main_v7 y
  congr 1
  funext a
  apply Fin.ext
  -- on each axis a block element sits in the array at block index × block size + its own coordinate; the index is 0
  show win0_0.index t a * S256x2048.size a + 1 * (y a).val = (y a).val
  rw [index0 t a]
  omega

/-- The targets block is the whole targets array. -/
theorem tblk_eq (c : Dev nD) (t : Fin cfg0.N) : tblk m c t = tarr m c := by
  funext y
  show iblk m c 2 t y = V m c main_v8 y
  unfold iblk
  rw [View.read_apply]
  show V m c main_v8 (((cfg0.win 2).blk t).view.emb y) = V m c main_v8 y
  congr 1
  funext a
  apply Fin.ext
  -- on each axis a block element sits in the array at block index × block size + its own coordinate; the index is 0
  show win0_2.index t a * S256x1.size a + 1 * (y a).val = (y a).val
  rw [index2 t a]
  omega

/-- Row j of the clusters block at grid point t is row 1024 t + j of the clusters. -/
theorem cblk_apply (c : Dev nD) (t : Fin cfg0.N) (j : Fin 1024) (k : Fin 2048) (h : t.val * 1024 + j.val < 32768) :
    cblk m c t (ix2 j k) = carr m c (ix2 (⟨t.val * 1024 + j.val, h⟩ : Fin 32768) k) := by
  show iblk m c 1 t (ix2 j k) = V m c main_arg2 (ix2 (⟨t.val * 1024 + j.val, h⟩ : Fin 32768) k)
  unfold iblk
  rw [View.read_apply]
  show V m c main_arg2 (((cfg0.win 1).blk t).view.emb (ix2 j k)) = V m c main_arg2 (ix2 (⟨t.val * 1024 + j.val, h⟩ : Fin 32768) k)
  congr 1
  funext a
  apply Fin.ext
  -- rows: block index t, block size 1024, so row t · 1024 + j; columns: block index 0, so column k
  match a with
  | ⟨0, _⟩ =>
    show win0_1.index t (0 : Fin 2) * 1024 + 1 * j.val = t.val * 1024 + j.val
    rw [(index1 t).1]
    omega
  | ⟨1, _⟩ =>
    show win0_1.index t (1 : Fin 2) * 2048 + 1 * k.val = k.val
    rw [(index1 t).2]
    omega

/-- The queries array is the queries argument after the change of format. -/
theorem qarr_eq (c : Dev nD) :
    qarr m c = truncf .bf16 (m ((c : Thread nD τ).loc main_arg0)) bitsLt_bf16_f32 := by
  -- of the eleven operations before the kernel only the change of format writes this array, and it reads the argument
  show StableHlo.after hostOps0 (fun b => m (c, b)) (Proc.devRef .tc main_v7) = _
  after_results

/-- The clusters array is the clusters argument. -/
theorem carr_eq (c : Dev nD) : carr m c = m ((c : Thread nD τ).loc main_arg2) := V_main_arg2 m c

/-- The targets array is the reference's targets column of the positions and the labels. -/
theorem tarr_eq (c : Dev nD) :
    tarr m c = Cert.ReferenceIdeal.Read.val_main_v21 (F := F) (m ((c : Thread nD τ).loc main_arg3)) (m ((c : Thread nD τ).loc main_arg4)) := by
  -- replay the operations before the kernel that feed this array: wrap of negative positions, take, column broadcast
  show StableHlo.after hostOps0 (fun b => m (c, b)) (Proc.devRef .tc main_v8) = _
  after_results
  -- what is left is the same chain of operations as the reference's column, written with the kernel program's own
  -- shape records and side conditions: equal field by field, the side conditions being proofs
  rfl

end Cert.KernelIdeal.Blocks

end
-- ==== Proof.SpecKernelForm.lean ====
/-
  The shape in which the kernel computes the loss, and that it is the loss.

  The kernel walks the 32768 clusters in 32 blocks of 1024, sixteen blocks on each of two cores. Per core and query it
  keeps two running sums over the core's blocks, started from the zero word at the core's first block: the block's
  exponentials, and the block's exponentials masked to the one column whose number is the query's target. The host then
  adds the two cores' sums. Over the extended reals addition is associative and commutative with the zero word denoting
  zero, so the two cores' running sums of block sums are the row's whole sum, and the masked sums pick out the single
  exponential at the target column whenever the target is a column number.
-/
import proofs.«427086_j91233695301908_3_alg».proof.Proof.Spec

noncomputable section

namespace Cert.Loss

open Idealize.ShloMosaic Idealize.ShloMosaic.ValueIdx

/-- The zero word. -/
abbrev zw : EReal := Ideal.ofBits .f32 0x00000000#32

/-- A running sum in point order: the zero word plus the first summand, then one more summand per step. -/
def chain (g : ℕ → EReal) : ℕ → EReal
  | 0 => zw + g 0
  | n + 1 => chain g n + g (n + 1)

/-- Column j of block b. -/
def bcol (b : ℕ) (j : Fin 1024) : Fin 32768 := ⟨(b * 1024 + j.val) % 32768, Nat.mod_lt _ (by decide)⟩

/-- Core c's running sum of exponentials for query r after its sixteen blocks. -/
def coreSum (X : SQ.Idx → EReal) (C : SC.Idx → EReal) (c : Fin 2) (r : Fin 256) : EReal :=
  chain (fun n => ∑ j : Fin 1024, ex X C r (bcol (c.val * 16 + n) j)) 15

/-- Core c's running sum of the exponentials masked to the column numbered by the word w. -/
def coreHit (X : SQ.Idx → EReal) (C : SC.Idx → EReal) (w : BitVec 32) (c : Fin 2) (r : Fin 256) : EReal :=
  chain (fun n => ∑ j : Fin 1024,
    if (c.val * 16 + n) * 1024 + j.val = w.toNat then ex X C r (bcol (c.val * 16 + n) j) else 0) 15

/-- Query r's term as the kernel's host tail forms it from the two cores' sums. -/
def kterm (X : SQ.Idx → EReal) (C : SC.Idx → EReal) (w : BitVec 32) (r : Fin 256) : EReal :=
  Ideal.log (Ideal.div (coreHit X C w 0 r + coreHit X C w 1 r) ((coreSum X C 0 r + coreSum X C 1 r) + eps) + eps)

/-- The kernel's loss. -/
def kloss (X : SQ.Idx → EReal) (C : SC.Idx → EReal) (t : Fin 256 → BitVec 32) : EReal :=
  -(Ideal.div (zw + ∑ r : Fin 256, kterm X C (t r) r) (Ideal.ofBits .f32 0x43800000#32))

/-- The zero word denotes zero. -/
theorem zw_eq : zw = 0 := Ideal.ofBits_zero_f32

/-- The running sum is the plain sum of its summands. -/
theorem chain_eq (g : ℕ → EReal) (n : ℕ) : chain g n = ∑ k ∈ Finset.range (n + 1), g k := by
  induction n with
  | zero =>
    show zw + g 0 = ∑ k ∈ Finset.range 1, g k
    rw [zw_eq, zero_add, Finset.sum_range_one]
  | succ n ih =>
    show chain g n + g (n + 1) = _
    rw [ih, Finset.sum_range_succ _ (n + 1)]

/-- A sum over the first m * k naturals, cut into m consecutive blocks of k. -/
theorem sum_blocks_nat (F : ℕ → EReal) (k : ℕ) (m : ℕ) :
    ∑ b ∈ Finset.range m, ∑ j ∈ Finset.range k, F (b * k + j) = ∑ n ∈ Finset.range (m * k), F n := by
  induction m with
  | zero => simp only [Finset.range_zero, Finset.sum_empty, Nat.zero_mul]
  | succ m ih =>
    rw [Finset.sum_range_succ, ih, Nat.succ_mul, Finset.sum_range_add]

/-- Column j of block b has number b * 1024 + j when the block is one of the 32. -/
theorem bcol_val {b : ℕ} (hb : b < 32) (j : Fin 1024) : (bcol b j).val = b * 1024 + j.val := by
  have hj := j.isLt
  show (b * 1024 + j.val) % 32768 = b * 1024 + j.val
  exact Nat.mod_eq_of_lt (by omega)

/-- A sum over the 32768 columns, cut into 32 blocks of 1024 columns. -/
theorem sum_blocks (f : Fin 32768 → EReal) :
    ∑ b ∈ Finset.range 32, ∑ j : Fin 1024, f (bcol b j) = ∑ c : Fin 32768, f c := by
  -- the same function on the naturals, zero past the last column
  let F : ℕ → EReal := fun n => if h : n < 32768 then f ⟨n, h⟩ else 0
  have hF : ∀ c : Fin 32768, F c.val = f c := fun c => dif_pos c.isLt
  have hR : ∑ c : Fin 32768, f c = ∑ n ∈ Finset.range 32768, F n := by
    rw [← Fin.sum_univ_eq_sum_range]
    exact Finset.sum_congr rfl (fun c _ => (hF c).symm)
  have hL : ∀ b ∈ Finset.range 32,
      ∑ j : Fin 1024, f (bcol b j) = ∑ j ∈ Finset.range 1024, F (b * 1024 + j) := by
    intro b hb
    rw [← Fin.sum_univ_eq_sum_range (fun j => F (b * 1024 + j))]
    refine Finset.sum_congr rfl (fun j _ => ?_)
    rw [← bcol_val (Finset.mem_range.mp hb) j, hF]
  rw [Finset.sum_congr rfl hL, sum_blocks_nat F 1024 32, hR]

/-- The two cores' running sums over sixteen blocks each are the sum over all 32 blocks. -/
theorem chain_two_cores (g : ℕ → EReal) :
    chain (fun n => g (0 * 16 + n)) 15 + chain (fun n => g (1 * 16 + n)) 15 = ∑ b ∈ Finset.range 32, g b := by
  rw [chain_eq, chain_eq]
  show ∑ k ∈ Finset.range 16, g (0 * 16 + k) + ∑ k ∈ Finset.range 16, g (1 * 16 + k)
    = ∑ b ∈ Finset.range (16 + 16), g b
  rw [Finset.sum_range_add]
  simp only [Nat.zero_mul, Nat.zero_add, Nat.one_mul]

/-- The two cores' sums of exponentials are the row's whole sum. -/
theorem coreSum_add (X : SQ.Idx → EReal) (C : SC.Idx → EReal) (r : Fin 256) :
    coreSum X C 0 r + coreSum X C 1 r = ∑ j : Fin 32768, ex X C r j :=
  (chain_two_cores (fun b => ∑ j : Fin 1024, ex X C r (bcol b j))).trans (sum_blocks (fun c => ex X C r c))

/-- The two cores' masked sums are the one exponential at the target column. -/
theorem coreHit_add (X : SQ.Idx → EReal) (C : SC.Idx → EReal) (w : BitVec 32) (hw : w.toNat < 32768)
    (r : Fin 256) : coreHit X C w 0 r + coreHit X C w 1 r = ex X C r (col w) := by
  -- the masked row: the exponential at the column numbered w, zero elsewhere
  let f : Fin 32768 → EReal := fun c => if c.val = w.toNat then ex X C r c else 0
  have h1 : coreHit X C w 0 r + coreHit X C w 1 r
      = ∑ b ∈ Finset.range 32, ∑ j : Fin 1024,
          if b * 1024 + j.val = w.toNat then ex X C r (bcol b j) else 0 :=
    chain_two_cores (fun b => ∑ j : Fin 1024,
      if b * 1024 + j.val = w.toNat then ex X C r (bcol b j) else 0)
  have h2 : ∀ b ∈ Finset.range 32,
      (∑ j : Fin 1024, if b * 1024 + j.val = w.toNat then ex X C r (bcol b j) else 0)
        = ∑ j : Fin 1024, f (bcol b j) := by
    intro b hb
    refine Finset.sum_congr rfl (fun j _ => ?_)
    show _ = if (bcol b j).val = w.toNat then ex X C r (bcol b j) else 0
    rw [bcol_val (Finset.mem_range.mp hb) j]
  rw [h1, Finset.sum_congr rfl h2, sum_blocks f, Finset.sum_eq_single (col w)]
  · show (if (col w).val = w.toNat then ex X C r (col w) else 0) = _
    rw [if_pos (col_val hw)]
  · intro c _ hc
    show (if c.val = w.toNat then ex X C r c else 0) = 0
    rw [if_neg]
    intro h
    exact hc (Fin.ext (h.trans (col_val hw).symm))
  · intro h
    exact absurd (Finset.mem_univ _) h

/-- The kernel's term is the loss's term at the target column. -/
theorem kterm_eq (X : SQ.Idx → EReal) (C : SC.Idx → EReal) (w : BitVec 32) (hw : w.toNat < 32768)
    (r : Fin 256) : kterm X C w r = term X C r (col w) := by
  unfold kterm term
  rw [coreSum_add, coreHit_add X C w hw]

/-- With every target a column number, the kernel's loss is the loss. -/
theorem kloss_eq_loss (X : SQ.Idx → EReal) (C : SC.Idx → EReal) (t : Fin 256 → BitVec 32)
    (hT : ∀ r, (t r).toNat < 32768) : kloss X C t = loss X C t := by
  unfold kloss loss
  rw [zw_eq, zero_add, Finset.sum_congr rfl (fun r _ => kterm_eq X C (t r) (hT r) r)]

end Cert.Loss

end
-- ==== Proof.KAccum.lean ====
/-
  What the kernel's two output blocks hold after each grid point, entry by entry, on the extended reals.

  The grid's 32 points run the 32 cluster blocks in order; points 0 to 15 belong to the first core's output block and
  points 16 to 31 to the second's. At a core's first point the block is reset and updated; at every other point it is
  updated from what the previous point left. So after point n the row-r entry of the first output is the running sum,
  from the zero word, of the row's block sums of exponentials over the blocks 16 (n / 16) to n, and the second output's is
  the same running sum of the masked block sums.
-/
import proofs.«427086_j91233695301908_3_alg».proof.Proof.KPieces
import proofs.«427086_j91233695301908_3_alg».proof.Proof.KernelPay
import proofs.«427086_j91233695301908_3_alg».proof.Proof.KBlocks
import proofs.«427086_j91233695301908_3_alg».proof.Proof.SpecKernelForm

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks Cert.KernelIdeal.Pieces Cert.KernelPay

variable (m : (ℓ : Loc nD τ sig) → Buf (Elt Ideal) ℓ)

/-- The queries, the clusters and the targets the kernel works on, as the loss reads them. -/
abbrev X (c : Dev nD) : Cert.Loss.SQ.Idx → EReal := qarr m c
abbrev C (c : Dev nD) : Cert.Loss.SC.Idx → EReal := carr m c
abbrev T (c : Dev nD) (r : Fin 256) : BitVec 32 := tarr m c (ix2 r (0 : Fin 1))

/-- Row r's sum of exponentials over block b, and the same sum masked to the target's column. -/
def bsum (c : Dev nD) (r : Fin 256) (b : ℕ) : EReal :=
  ∑ j : Fin 1024, Cert.Loss.ex (X m c) (C m c) r (Cert.Loss.bcol b j)
def bhit (c : Dev nD) (r : Fin 256) (b : ℕ) : EReal :=
  ∑ j : Fin 1024, if b * 1024 + j.val = (T m c r).toNat then Cert.Loss.ex (X m c) (C m c) r (Cert.Loss.bcol b j) else 0

/-- An exponential the body forms from its blocks at grid point t is the loss's exponential at the block's column. -/
theorem bex_eq (c : Dev nD) (t : Fin cfg0.N) (r : Fin 256) (j : Fin 1024) :
    bex (qblk m c t) (cblk m c t) r j = Cert.Loss.ex (X m c) (C m c) r (Cert.Loss.bcol t.val j) := by
  have hN : t.val < 32 := lt_of_lt_of_eq t.isLt (show cfg0.N = 32 from N_0)
  have hj := j.isLt
  have hlt : t.val * 1024 + j.val < 32768 := by omega
  have hcol : Cert.Loss.bcol t.val j = (⟨t.val * 1024 + j.val, hlt⟩ : Fin 32768) :=
    Fin.ext (Nat.mod_eq_of_lt hlt)
  unfold bex Cert.Loss.ex
  rw [hcol, qblk_eq]
  refine congrArg (fun s => Ideal.exp (s * Cert.Loss.invT)) (Finset.sum_congr rfl fun k _ => ?_)
  rw [cblk_apply m c t j k hlt]

theorem bsum_eq (c : Dev nD) (t : Fin cfg0.N) (r : Fin 256) :
    ∑ j : Fin 1024, bex (qblk m c t) (cblk m c t) r j = bsum m c r t.val :=
  Finset.sum_congr rfl fun j _ => bex_eq m c t r j

theorem bhit_eq (c : Dev nD) (t : Fin cfg0.N) (r : Fin 256) :
    (∑ j : Fin 1024, if ((grid0.coords t 0).val * 16 + (grid0.coords t 1).val) * 1024 + j.val
        = (tblk m c t (ix2 r (0 : Fin 1))).toNat then bex (qblk m c t) (cblk m c t) r j else 0) = bhit m c r t.val := by
  unfold bhit
  rw [coords_val, tblk_eq]
  exact Finset.sum_congr rfl fun j _ => by rw [bex_eq]

/-! ## One grid point -/

/-- At a core's first point: the zero word plus the block sum. -/
theorem sum_A (c : Dev nD) (t : Fin cfg0.N) (h0 : t.val % 16 = 0) (r : Fin 256) :
    ((outsAt0 m c t.val t.isLt).1 (ix3 (0 : Fin 1) r (0 : Fin 1)) : EReal) = Cert.Loss.zw + bsum m c r t.val := by
  rw [outsAt0_A m c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (qblk m c t) (cblk m c t) (tblk m c t)) (ix3 (0 : Fin 1) r (0 : Fin 1))).trans ?_
  rw [pay5_apply, pay2_apply, bsum_eq]

theorem hit_A (c : Dev nD) (t : Fin cfg0.N) (h0 : t.val % 16 = 0) (r : Fin 256) :
    ((outsAt0 m c t.val t.isLt).2 (ix3 (0 : Fin 1) r (0 : Fin 1)) : EReal) = Cert.Loss.zw + bhit m c r t.val := by
  rw [outsAt0_A m c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (qblk m c t) (cblk m c t) (tblk m c t)) (ix3 (0 : Fin 1) r (0 : Fin 1))).trans ?_
  rw [pay1_apply, pay3_apply, bhit_eq]

/-- At any other point: what the previous point left plus the block sum. -/
theorem sum_B (c : Dev nD) (t : Fin cfg0.N) (h0 : ¬t.val % 16 = 0) (r : Fin 256) :
    ((outsAt0 m c t.val t.isLt).1 (ix3 (0 : Fin 1) r (0 : Fin 1)) : EReal)
      = ((outsAt0 m c (t.val - 1) (Nat.lt_of_le_of_lt (Nat.sub_le _ _) t.isLt)).1 (ix3 (0 : Fin 1) r (0 : Fin 1)) : EReal) + bsum m c r t.val := by
  rw [outsAt0_B m c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (qblk m c t) (cblk m c t) (tblk m c t)
    (outsAt0 m c (t.val - 1) (Nat.lt_of_le_of_lt (Nat.sub_le _ _) t.isLt)).1 (outsAt0 m c (t.val - 1) (Nat.lt_of_le_of_lt (Nat.sub_le _ _) t.isLt)).2) (ix3 (0 : Fin 1) r (0 : Fin 1))).trans ?_
  rw [pay5_apply, bsum_eq]

theorem hit_B (c : Dev nD) (t : Fin cfg0.N) (h0 : ¬t.val % 16 = 0) (r : Fin 256) :
    ((outsAt0 m c t.val t.isLt).2 (ix3 (0 : Fin 1) r (0 : Fin 1)) : EReal)
      = ((outsAt0 m c (t.val - 1) (Nat.lt_of_le_of_lt (Nat.sub_le _ _) t.isLt)).2 (ix3 (0 : Fin 1) r (0 : Fin 1)) : EReal) + bhit m c r t.val := by
  rw [outsAt0_B m c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (qblk m c t) (cblk m c t) (tblk m c t)
    (outsAt0 m c (t.val - 1) (Nat.lt_of_le_of_lt (Nat.sub_le _ _) t.isLt)).1 (outsAt0 m c (t.val - 1) (Nat.lt_of_le_of_lt (Nat.sub_le _ _) t.isLt)).2) (ix3 (0 : Fin 1) r (0 : Fin 1))).trans ?_
  rw [pay1_apply, bhit_eq]

/-! ## All grid points: the running sums -/

/-- After point n the first output's row-r entry is the running sum of the block sums of the core's blocks up to n. -/
theorem sum_inv (c : Dev nD) (r : Fin 256) : ∀ (n : ℕ) (h : n < cfg0.N),
    ((outsAt0 m c n h).1 (ix3 (0 : Fin 1) r (0 : Fin 1)) : EReal)
      = Cert.Loss.chain (fun k => bsum m c r (n / 16 * 16 + k)) (n % 16)
  | 0, h => by
    rw [sum_A m c ⟨0, h⟩ rfl r]
    rfl
  | n + 1, h => by
    by_cases h0 : (n + 1) % 16 = 0
    · rw [sum_A m c ⟨n + 1, h⟩ h0 r, h0]
      show _ = Cert.Loss.zw + bsum m c r ((n + 1) / 16 * 16 + 0)
      rw [show (n + 1) / 16 * 16 + 0 = n + 1 by omega]
    · rw [sum_B m c ⟨n + 1, h⟩ h0 r]
      show ((outsAt0 m c n _).1 (ix3 (0 : Fin 1) r (0 : Fin 1)) : EReal) + bsum m c r (n + 1) = _
      rw [sum_inv c r n (Nat.lt_of_succ_lt h), show (n + 1) % 16 = n % 16 + 1 by omega, show (n + 1) / 16 = n / 16 by omega]
      show _ = Cert.Loss.chain _ (n % 16) + bsum m c r (n / 16 * 16 + (n % 16 + 1))
      rw [show n / 16 * 16 + (n % 16 + 1) = n + 1 by omega]

/-- The same for the second output and the masked block sums. -/
theorem hit_inv (c : Dev nD) (r : Fin 256) : ∀ (n : ℕ) (h : n < cfg0.N),
    ((outsAt0 m c n h).2 (ix3 (0 : Fin 1) r (0 : Fin 1)) : EReal)
      = Cert.Loss.chain (fun k => bhit m c r (n / 16 * 16 + k)) (n % 16)
  | 0, h => by
    rw [hit_A m c ⟨0, h⟩ rfl r]
    rfl
  | n + 1, h => by
    by_cases h0 : (n + 1) % 16 = 0
    · rw [hit_A m c ⟨n + 1, h⟩ h0 r, h0]
      show _ = Cert.Loss.zw + bhit m c r ((n + 1) / 16 * 16 + 0)
      rw [show (n + 1) / 16 * 16 + 0 = n + 1 by omega]
    · rw [hit_B m c ⟨n + 1, h⟩ h0 r]
      show ((outsAt0 m c n _).2 (ix3 (0 : Fin 1) r (0 : Fin 1)) : EReal) + bhit m c r (n + 1) = _
      rw [hit_inv c r n (Nat.lt_of_succ_lt h), show (n + 1) % 16 = n % 16 + 1 by omega, show (n + 1) / 16 = n / 16 by omega]
      show _ = Cert.Loss.chain _ (n % 16) + bhit m c r (n / 16 * 16 + (n % 16 + 1))
      rw [show n / 16 * 16 + (n % 16 + 1) = n + 1 by omega]

/-! ## A core's last point: the core's sums -/

/-- At the last point of core cc the first output's row-r entry is the core's sum of exponentials. -/
theorem sum_last (c : Dev nD) (t : Fin cfg0.N) (cc : Fin 2) (ht : t.val = cc.val * 16 + 15) (r : Fin 256) :
    ((outsAt0 m c t.val t.isLt).1 (ix3 (0 : Fin 1) r (0 : Fin 1)) : EReal) = Cert.Loss.coreSum (X m c) (C m c) cc r := by
  rw [sum_inv m c r t.val t.isLt, show t.val % 16 = 15 by omega, show t.val / 16 * 16 = cc.val * 16 by omega]
  rfl

/-- And the second output's is the core's masked sum at the row's target word. -/
theorem hit_last (c : Dev nD) (t : Fin cfg0.N) (cc : Fin 2) (ht : t.val = cc.val * 16 + 15) (r : Fin 256) :
    ((outsAt0 m c t.val t.isLt).2 (ix3 (0 : Fin 1) r (0 : Fin 1)) : EReal) = Cert.Loss.coreHit (X m c) (C m c) (T m c r) cc r := by
  rw [hit_inv m c r t.val t.isLt, show t.val % 16 = 15 by omega, show t.val / 16 * 16 = cc.val * 16 by omega]
  rfl

end Cert.KernelIdeal.Accum

end
-- ==== Proof.KArrays.lean ====
/-
  The kernel's two output arrays after the run.

  Each output array has one [1, 256, 1] block per core, block cc written back once, after the core's last grid point
  16 cc + 15, and the two blocks tile the array. So the first array ends holding, at (cc, r, 0), core cc's sum of
  exponentials for row r, and the second core cc's masked sum at row r's target word.
-/
import proofs.«427086_j91233695301908_3_alg».proof.Proof.KAccum

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Blocks Cert.KernelIdeal.Accum

variable (m : (ℓ : Loc nD τ sig) → Buf (Elt Ideal) ℓ)

/-- The array of the cores' sums of exponentials. -/
def G3 (c : Dev nD) : Buf (Elt Ideal) ((c : Thread nD τ).loc main_v9_0) :=
  fun i => Cert.Loss.coreSum (X m c) (C m c) ⟨(i 0).val, (i 0).isLt⟩ ⟨(i 1).val, (i 1).isLt⟩

/-- The array of the cores' masked sums. -/
def G4 (c : Dev nD) : Buf (Elt Ideal) ((c : Thread nD τ).loc main_v9_1) :=
  fun i => Cert.Loss.coreHit (X m c) (C m c) (T m c ⟨(i 1).val, (i 1).isLt⟩) ⟨(i 0).val, (i 0).isLt⟩ ⟨(i 1).val, (i 1).isLt⟩

theorem G3_apply (c : Dev nD) (cc : Fin 2) (r : Fin 256) :
    G3 m c (ix3 cc r (0 : Fin 1)) = Cert.Loss.coreSum (X m c) (C m c) cc r := rfl

theorem G4_apply (c : Dev nD) (cc : Fin 2) (r : Fin 256) :
    G4 m c (ix3 cc r (0 : Fin 1)) = Cert.Loss.coreHit (X m c) (C m c) (T m c r) cc r := rfl

/-- The block index of each output window at grid point t is (t / 16, 0, 0): the point's core, decided over the grid. -/
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)

/-- An index of a [1, 256, 1] block is (0, r, 0) for its middle coordinate r: the outer axes have one coordinate. -/
theorem blk_idx (y : S1x256x1.Idx) : y = ix3 (0 : Fin 1) (⟨(y 1).val, (y 1).isLt⟩ : Fin 256) (0 : Fin 1) := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

/-- The two arrays at an index whose first two coordinates are cc and r: they read no other coordinate. -/
theorem G3_of (c : Dev nD) (i : S2x256x1.Idx) (cc : Fin 2) (r : Fin 256) (h0 : (i 0).val = cc.val) (h1 : (i 1).val = r.val) :
    G3 m c i = Cert.Loss.coreSum (X m c) (C m c) cc r := by
  have ea : (⟨(i 0).val, (i 0).isLt⟩ : Fin 2) = cc := Fin.ext h0
  have eb : (⟨(i 1).val, (i 1).isLt⟩ : Fin 256) = r := Fin.ext h1
  show Cert.Loss.coreSum (X m c) (C m c) ⟨(i 0).val, (i 0).isLt⟩ ⟨(i 1).val, (i 1).isLt⟩ = _
  rw [ea, eb]
theorem G4_of (c : Dev nD) (i : S2x256x1.Idx) (cc : Fin 2) (r : Fin 256) (h0 : (i 0).val = cc.val) (h1 : (i 1).val = r.val) :
    G4 m c i = Cert.Loss.coreHit (X m c) (C m c) (T m c r) cc r := by
  have ea : (⟨(i 0).val, (i 0).isLt⟩ : Fin 2) = cc := Fin.ext h0
  have eb : (⟨(i 1).val, (i 1).isLt⟩ : Fin 256) = r := Fin.ext h1
  show Cert.Loss.coreHit (X m c) (C m c) (T m c ⟨(i 1).val, (i 1).isLt⟩) ⟨(i 0).val, (i 0).isLt⟩ ⟨(i 1).val, (i 1).isLt⟩ = _
  rw [ea, eb]

/-- What a write-back of the first output writes is its block of the array of the cores' sums: a write-back happens at
    a core's last point t = 16 cc + 15, the block's element (0, r, 0) sits in the array at (t / 16, r, 0) = (cc, r, 0)
    (block index times block size plus the coordinate inside the block, on each axis), and what the block holds there
    after that point is core cc's sum for row r. -/
theorem flushed3_eq (c : Dev nD) (t : Fin cfg0.N) (hf : (cfg0.win 3).flush t = true) :
    (dats m 0 c).flushed 3 t = ((cfg0.win 3).blk t).view.read (Elt Ideal) (G3 m c) := by
  have h15 := (flush0_3 t).mp hf
  have hN : t.val < 32 := lt_of_lt_of_eq t.isLt (show cfg0.N = 32 from N_0)
  show (cfg0.win 3).cut (grid0.coords t) ((dats m 0 c).after 3 t) = _
  rw [after0_3]
  funext y
  rw [View.read_apply]
  have hy0 : (y 0).val < 1 := (y 0).isLt
  have hy1 : (y 1).val < 256 := (y 1).isLt
  have hcc : t.val / 16 < 2 := by omega
  obtain ⟨i0, i1, i2⟩ := idx3 t
  have e0 : ((((cfg0.win 3).blk t).view.emb y) 0 : Nat) = t.val / 16 := by
    show ((win0_3.rect t).emb y 0 : Nat) = _
    rw [Pipeline.Window.rect_emb_val, i0]
    show t.val / 16 * 1 + (y 0).val = _
    omega
  have e1 : ((((cfg0.win 3).blk t).view.emb y) 1 : Nat) = (y 1).val := by
    show ((win0_3.rect t).emb y 1 : Nat) = _
    rw [Pipeline.Window.rect_emb_val, i1]
    show 0 * 256 + (y 1).val = _
    omega
  refine Eq.trans (b := Cert.Loss.coreSum (X m c) (C m c) ⟨t.val / 16, hcc⟩ ⟨(y 1).val, hy1⟩) ?_ (Eq.symm ?_)
  · exact (congrArg (outsAt0 m c t.val t.isLt).1 (blk_idx y)).trans
      (sum_last m c t ⟨t.val / 16, hcc⟩ (by show t.val = t.val / 16 * 16 + 15; omega) ⟨(y 1).val, hy1⟩)
  · exact G3_of m c _ ⟨t.val / 16, hcc⟩ ⟨(y 1).val, hy1⟩ e0 e1

/-- The same for the second output and the cores' masked sums. -/
theorem flushed4_eq (c : Dev nD) (t : Fin cfg0.N) (hf : (cfg0.win 4).flush t = true) :
    (dats m 0 c).flushed 4 t = ((cfg0.win 4).blk t).view.read (Elt Ideal) (G4 m c) := by
  have h15 := (flush0_4 t).mp hf
  have hN : t.val < 32 := lt_of_lt_of_eq t.isLt (show cfg0.N = 32 from N_0)
  show (cfg0.win 4).cut (grid0.coords t) ((dats m 0 c).after 4 t) = _
  rw [after0_4]
  funext y
  rw [View.read_apply]
  have hy0 : (y 0).val < 1 := (y 0).isLt
  have hy1 : (y 1).val < 256 := (y 1).isLt
  have hcc : t.val / 16 < 2 := by omega
  obtain ⟨i0, i1, i2⟩ := idx4 t
  have e0 : ((((cfg0.win 4).blk t).view.emb y) 0 : Nat) = t.val / 16 := by
    show ((win0_4.rect t).emb y 0 : Nat) = _
    rw [Pipeline.Window.rect_emb_val, i0]
    show t.val / 16 * 1 + (y 0).val = _
    omega
  have e1 : ((((cfg0.win 4).blk t).view.emb y) 1 : Nat) = (y 1).val := by
    show ((win0_4.rect t).emb y 1 : Nat) = _
    rw [Pipeline.Window.rect_emb_val, i1]
    show 0 * 256 + (y 1).val = _
    omega
  refine Eq.trans (b := Cert.Loss.coreHit (X m c) (C m c) (T m c ⟨(y 1).val, hy1⟩) ⟨t.val / 16, hcc⟩ ⟨(y 1).val, hy1⟩) ?_ (Eq.symm ?_)
  · exact (congrArg (outsAt0 m c t.val t.isLt).2 (blk_idx y)).trans
      (hit_last m c t ⟨t.val / 16, hcc⟩ (by show t.val = t.val / 16 * 16 + 15; omega) ⟨(y 1).val, hy1⟩)
  · exact G4_of m c _ ⟨t.val / 16, hcc⟩ ⟨(y 1).val, hy1⟩ e0 e1

/-- The first output array after the run. -/
theorem final3 (c : Dev nD) : (dats m 0 c).arrAt 3 cfg0.N = G3 m c := by
  -- the array index (cc, r, 0) lies in the block written back at point 16 cc + 15: the two blocks tile the array
  refine (dats m 0 c).arrAt_eq_of_cover 3 (G3 m c) (flushed3_eq m c) fun i => ?_
  have hi0 : (i 0 : Nat) < 2 := (i 0).isLt
  have hi1 : (i 1 : Nat) < 256 := (i 1).isLt
  have hi2 : (i 2 : Nat) < 1 := (i 2).isLt
  have hN : cfg0.N = 32 := N_0
  obtain ⟨t, ht⟩ : ∃ t : Fin cfg0.N, t.val = (i 0 : Nat) * 16 + 15 := ⟨⟨(i 0 : Nat) * 16 + 15, by rw [hN]; omega⟩, rfl⟩
  refine ⟨t, (flush0_3 t).mpr (by omega), ?_⟩
  obtain ⟨j0, j1, j2⟩ := idx3 t
  show i ∈ ((View.whole main_v9_0).slice (win0_3.rect t)).set
  rw [View.set_slice_whole, Rect.mem_set_unit]
  intro a
  match a with
  | ⟨0, _⟩ =>
    show win0_3.index t 0 * win0_3.size 0 ≤ (i 0 : Nat) ∧ (i 0 : Nat) < win0_3.index t 0 * win0_3.size 0 + win0_3.xsize (grid0.coords t) 0
    rw [j0]
    show t.val / 16 * 1 ≤ (i 0 : Nat) ∧ (i 0 : Nat) < t.val / 16 * 1 + 1
    omega
  | ⟨1, _⟩ =>
    show win0_3.index t 1 * win0_3.size 1 ≤ (i 1 : Nat) ∧ (i 1 : Nat) < win0_3.index t 1 * win0_3.size 1 + win0_3.xsize (grid0.coords t) 1
    rw [j1]
    show 0 * 256 ≤ (i 1 : Nat) ∧ (i 1 : Nat) < 0 * 256 + 256
    omega
  | ⟨2, _⟩ =>
    show win0_3.index t 2 * win0_3.size 2 ≤ (i 2 : Nat) ∧ (i 2 : Nat) < win0_3.index t 2 * win0_3.size 2 + win0_3.xsize (grid0.coords t) 2
    rw [j2]
    show 0 * 1 ≤ (i 2 : Nat) ∧ (i 2 : Nat) < 0 * 1 + 1
    omega

/-- The second output array after the run. -/
theorem final4 (c : Dev nD) : (dats m 0 c).arrAt 4 cfg0.N = G4 m c := by
  refine (dats m 0 c).arrAt_eq_of_cover 4 (G4 m c) (flushed4_eq m c) fun i => ?_
  have hi0 : (i 0 : Nat) < 2 := (i 0).isLt
  have hi1 : (i 1 : Nat) < 256 := (i 1).isLt
  have hi2 : (i 2 : Nat) < 1 := (i 2).isLt
  have hN : cfg0.N = 32 := N_0
  obtain ⟨t, ht⟩ : ∃ t : Fin cfg0.N, t.val = (i 0 : Nat) * 16 + 15 := ⟨⟨(i 0 : Nat) * 16 + 15, by rw [hN]; omega⟩, rfl⟩
  refine ⟨t, (flush0_4 t).mpr (by omega), ?_⟩
  obtain ⟨j0, j1, j2⟩ := idx4 t
  show i ∈ ((View.whole main_v9_1).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [j0]
    show t.val / 16 * 1 ≤ (i 0 : Nat) ∧ (i 0 : Nat) < t.val / 16 * 1 + 1
    omega
  | ⟨1, _⟩ =>
    show win0_4.index t 1 * win0_4.size 1 ≤ (i 1 : Nat) ∧ (i 1 : Nat) < win0_4.index t 1 * win0_4.size 1 + win0_4.xsize (grid0.coords t) 1
    rw [j1]
    show 0 * 256 ≤ (i 1 : Nat) ∧ (i 1 : Nat) < 0 * 256 + 256
    omega
  | ⟨2, _⟩ =>
    show win0_4.index t 2 * win0_4.size 2 ≤ (i 2 : Nat) ∧ (i 2 : Nat) < win0_4.index t 2 * win0_4.size 2 + win0_4.xsize (grid0.coords t) 2
    rw [j2]
    show 0 * 1 ≤ (i 2 : Nat) ∧ (i 2 : Nat) < 0 * 1 + 1
    omega

end Cert.KernelIdeal.Arrays

end
-- ==== Proof.KTail.lean ====
/-
  The host operations after the kernel, as one function of the kernel's two output arrays.

  Each output array has one [256, 1] block per core. The host adds the two cores' blocks of each array row by row, divides
  the masked sum by the sum plus the small constant, adds the small constant, takes the logarithm, sums over the 256 rows,
  divides by 256 and negates.
-/
import proofs.«427086_j91233695301908_3_alg».proof.Proof.SpecKernelForm
import proofs.«427086_j91233695301908_3_alg».proof.KernelIdeal
import proofs.«427086_j91233695301908_3_alg».proof.Proof.Gen.KernelIdeal
import Idealize.ShloMosaic.PureOps.Ideal.Laws
import Idealize.ShloMosaic.Lib.ValueIdx
import Idealize.ShloMosaic.Lib.Pipeline.Value

noncomputable section

namespace Cert.KTail

open Idealize.ShloMosaic Idealize.ShloMosaic.ValueIdx Cert.KernelIdeal Cert.KernelIdeal.Gen

variable {F : FTy → Type} [FloatOps F]

/-- The two cores' blocks of an output array added row by row. -/
def coreAdd (a : FVec F S2x256x1 .f32) : FVec F S256 .f32 :=
  addf (shapeCast S256 (extractStridedSlice S1x256x1 ![0, 0, 0] a slices_S2x256x1_S1x256x1_0_0_0) shapeCasts_S1x256x1_S256)
    (shapeCast S256 (extractStridedSlice S1x256x1 ![1, 0, 0] a slices_S2x256x1_S1x256x1_1_0_0) shapeCasts_S1x256x1_S256)

/-- The host tail: from the array of sums s and the array of masked sums e to the loss. -/
def tail (s e : FVec F S2x256x1 .f32) : FVec F S_ .f32 :=
  Host.negf (Host.divf
    (Host.reduceAdd
      (Host.log (addf
        (Host.divf (coreAdd e) (addf (coreAdd s) (broadcastInDim S256 ![] bcast_S_S256 (constant S_ .f32 0x358637BD#32))))
        (broadcastInDim S256 ![] bcast_S_S256 (constant S_ .f32 0x358637BD#32))))
      (constant S_ .f32 0x00000000#32) reducesTo_S256_S_d0 h_S_)
    (constant S_ .f32 0x43800000#32))

/-- One core's block of an output array, flattened to the 256 rows, read at row r: the array at core c, row r. -/
theorem slice_apply {α : Type} (a : S2x256x1.Idx → α) (c : ℕ) (hc : c < 2) (h : S2x256x1.Slices ![c, 0, 0] S1x256x1)
    (r : Fin 256) :
    shapeCast S256 (extractStridedSlice S1x256x1 ![c, 0, 0] a h) shapeCasts_S1x256x1_S256 (ix1 r)
      = a (ix3 (⟨c, hc⟩ : Fin 2) r (0 : Fin 1)) := by
  -- row r of the flat array is entry (0, r, 0) of the block: both have row-major position r
  rw [shapeCast_apply _ shapeCasts_S1x256x1_S256 (ix1 r) (ix3 (0 : Fin 1) r (0 : Fin 1))
    (by rewrite [Shape.rowMajor_val_three, Shape.rowMajor_val_one]
        show (0 * 256 + r.val) * 1 + 0 = r.val
        omega)]
  -- entry (0, r, 0) of the block at offset (c, 0, 0) is entry (c, r, 0) of the array
  exact extractStridedSlice_apply ![c, 0, 0] a h (ix3 (0 : Fin 1) r (0 : Fin 1)) (ix3 (⟨c, hc⟩ : Fin 2) r (0 : Fin 1))
    (fun b => by
      match b with
      | ⟨0, _⟩ => exact (Nat.add_zero c).symm
      | ⟨1, _⟩ => exact (Nat.zero_add r.val).symm
      | ⟨2, _⟩ => rfl)

/-- The two cores' blocks added, read at row r. -/
theorem coreAdd_apply (a : FVec Ideal S2x256x1 .f32) (r : Fin 256) :
    coreAdd (F := Ideal) a (ix1 r) = a (ix3 (0 : Fin 2) r (0 : Fin 1)) + a (ix3 (1 : Fin 2) r (0 : Fin 1)) := by
  unfold coreAdd
  rw [addf_apply, slice_apply a 0 (by omega), slice_apply a 1 (by omega)]
  rfl

/-- The rows' indices are the 256 row numbers. -/
def rowEquiv : Fin 256 ≃ S256.Idx where
  toFun r := ix1 r
  invFun j := j 0
  left_inv _ := rfl
  right_inv j := (eq_ix1 j).symm

/-- The tail on the extended reals, at its one entry. -/
theorem tail_apply (s e : FVec Ideal S2x256x1 .f32) (i : S_.Idx) :
    tail (F := Ideal) s e i
      = -(Ideal.div (Cert.Loss.zw + ∑ r : Fin 256,
            Ideal.log (Ideal.div ((e (ix3 (0 : Fin 2) r (0 : Fin 1)) : EReal) + (e (ix3 (1 : Fin 2) r (0 : Fin 1)) : EReal))
              (((s (ix3 (0 : Fin 2) r (0 : Fin 1)) : EReal) + (s (ix3 (1 : Fin 2) r (0 : Fin 1)) : EReal)) + Cert.Loss.eps) + Cert.Loss.eps))
          (Ideal.ofBits .f32 0x43800000#32)) := by
  unfold tail
  -- the array of the rows' logarithms
  generalize hY : Host.log (addf
      (Host.divf (coreAdd e) (addf (coreAdd s) (broadcastInDim S256 ![] bcast_S_S256 (constant S_ .f32 0x358637BD#32))))
      (broadcastInDim S256 ![] bcast_S_S256 (constant S_ .f32 0x358637BD#32))) = Y
  -- the host's sum into the scalar shape is the initial value plus the sum over every row
  have hsum : Host.reduceAdd Y (constant S_ .f32 0x00000000#32) reducesTo_S256_S_d0 h_S_ i
      = Cert.Loss.zw + ∑ j : S256.Idx, Y j := by
    simp only [Host.reduceAdd, Ideal.hostReduceAdd_def]
    exact Ideal.hostReduceAdd_total reducesTo_S256_S_d0 (fun b => b.elim0) Y _ i
  show -(Ideal.div (Host.reduceAdd Y (constant S_ .f32 0x00000000#32) reducesTo_S256_S_d0 h_S_ i)
      (Ideal.ofBits .f32 0x43800000#32)) = _
  rw [hsum, ← Equiv.sum_comp rowEquiv Y]
  congr 3
  refine Finset.sum_congr rfl (fun r _ => ?_)
  -- one row: every operation is pointwise and the constant is the same at every row
  subst hY
  show Ideal.log (Ideal.div (coreAdd e (ix1 r)) (coreAdd s (ix1 r) + Cert.Loss.eps) + Cert.Loss.eps) = _
  rw [coreAdd_apply, coreAdd_apply]

end Cert.KTail

end
-- ==== Proof.KResult.lean ====
/-
  The kernel program's run, with its result named: the loss in the kernel's form.

  After the kernel the host reads the two output arrays and nothing else of what the kernel wrote: its result is the host
  tail applied to the arrays of the cores' sums and masked sums, which entry by entry is the kernel's form of the loss at
  the queries, clusters and targets the kernel was given.
-/
import proofs.«427086_j91233695301908_3_alg».proof.Proof.KArrays
import proofs.«427086_j91233695301908_3_alg».proof.Proof.KTail
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Accum Cert.KernelIdeal.Arrays

variable (m : (ℓ : Loc nD τ sig) → Buf (Elt Ideal) ℓ) (ρ : Dev nD → PrngReg)

/-- The result buffer after the host tail is the tail's function of the two output arrays. -/
theorem tail_result (c : Dev nD) :
    Pipeline.afterTail₀ cfgs (dats m) 0 (V0 m) [hostOps1] c main_v28
      = Cert.KTail.tail (F := Ideal) (G3 m c) (G4 m c) := by
  unfold Pipeline.afterTail₀
  show StableHlo.after hostOps1 _ (Proc.devRef .tc main_v28) = _
  after_results
  rw [(Pipeline.withArrays_arr spec0 launch0.win.arr_inj c _ _ 3).trans (final3 m c),
    (Pipeline.withArrays_arr spec0 launch0.win.arr_inj c _ _ 4).trans (final4 m c)]
  rfl

/-- The tail of those arrays is the kernel's form of the loss. -/
theorem result_eq (c : Dev nD) :
    Cert.KTail.tail (F := Ideal) (G3 m c) (G4 m c) = fun _ => Cert.Loss.kloss (X m c) (C m c) (T m c) := by
  funext i
  rw [Cert.KTail.tail_apply]
  simp only [G3_apply, G4_apply]
  rfl

/-- Every weakly fair execution of the kernel program terminates with the result at the kernel's form of the loss and
    the arguments unchanged. -/
theorem run : θ_run defs (onTc (τ := τ) (main (F := Ideal))) ⟨m, fun _ => 0, ρ⟩ (fun r => ∀ c : Dev nD,
      r.2.mem ((c.tc : Thread nD τ).loc main_v28) = (fun _ => Cert.Loss.kloss (X m c) (C m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v28 (Pipeline.mem_restRefs_of main_v28 (by decide) (by decide))).trans
        ((tail_result m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefLoss.lean ====
/-
  The reference's result is the loss, when every target is a column number.
-/
import proofs.«427086_j91233695301908_3_alg».proof.Proof.Spec
import proofs.«427086_j91233695301908_3_alg».proof.Proof.Gen.ReferenceIdeal.Read
import Idealize.ShloMosaic.Lib.StableHlo.Predicate
import Idealize.ShloMosaic.PureOps.Reduce

noncomputable section

namespace Cert.RefLoss

open Idealize.ShloMosaic Idealize.ShloMosaic.ValueIdx Cert.ReferenceIdeal Cert.ReferenceIdeal.Read

/-- The batched take along axis 1. -/
theorem gather_read {α : Type} (x : S256x32768.Idx → α) (si : IVec S256x1x1 32) (p : Fin 256) :
    Host.gather gather_S256x32768_S256x1x1_S256x1_n_1_0_0_1_2_11 x si (ix2 p (0 : Fin 1))
      = x (ix2 p (Cert.Loss.col (si (ix3 p (0 : Fin 1) (0 : Fin 1))))) := by
  unfold Host.gather
  congr 1
  funext a
  refine Fin.ext ?_
  match a with
  | ⟨0, _⟩ =>
    show gather_S256x32768_S256x1x1_S256x1_n_1_0_0_1_2_11.start _ si 0 + gather_S256x32768_S256x1x1_S256x1_n_1_0_0_1_2_11.batchCoord _ 0 + gather_S256x32768_S256x1x1_S256x1_n_1_0_0_1_2_11.offCoord _ 0 = p.val
    have hb : (0 : Fin 2) ∈ gather_S256x32768_S256x1x1_S256x1_n_1_0_0_1_2_11.operandBatchingDims := List.mem_singleton.mpr rfl
    rw [GatherDims.start_batching _ _ _ _ hb, GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show gather_S256x32768_S256x1x1_S256x1_n_1_0_0_1_2_11.start _ si 1 + gather_S256x32768_S256x1x1_S256x1_n_1_0_0_1_2_11.batchCoord _ 1 + gather_S256x32768_S256x1x1_S256x1_n_1_0_0_1_2_11.offCoord _ 1 = (Cert.Loss.col (si (ix3 p (0 : Fin 1) (0 : Fin 1)))).val
    have hc : (1 : Fin 2) ∈ gather_S256x32768_S256x1x1_S256x1_n_1_0_0_1_2_11.collapsedSliceDims := List.mem_singleton.mpr rfl
    have hnb : (1 : Fin 2) ∉ gather_S256x32768_S256x1x1_S256x1_n_1_0_0_1_2_11.operandBatchingDims := by
      intro h; exact absurd (List.mem_singleton.mp h) (by decide)
    have hm : (1 : Fin 2) ∈ gather_S256x32768_S256x1x1_S256x1_n_1_0_0_1_2_11.startIndexMap := List.mem_singleton.mpr rfl
    rw [GatherDims.batchCoord_eq_zero _ _ _ hnb, GatherDims.offCoord_eq_zero _ _ _ (fun h => ((GatherDims.mem_sKept _ _).mp h).1 hc)]
    simp only [Nat.add_zero]
    unfold GatherDims.start
    rw [dif_pos hm]
    have hsi : gather_S256x32768_S256x1x1_S256x1_n_1_0_0_1_2_11.siIdx (ix2 p (0 : Fin 1)) ⟨List.idxOf (1 : Fin 2) gather_S256x32768_S256x1x1_S256x1_n_1_0_0_1_2_11.startIndexMap,
        List.idxOf_lt_length_iff.2 hm⟩ = ix3 p (0 : Fin 1) (0 : Fin 1) := by
      funext b; refine Fin.ext ?_
      match b with
      | ⟨0, _⟩ => rfl
      | ⟨1, _⟩ => rfl
      | ⟨2, _⟩ => rfl
    rw [hsi]
    rfl

/-- Dropping the last axis of a [256, 1, 1] array leaves a [256, 1] array. -/
theorem reduces_d2 : S256x1x1.Reduces [2] S256x1 := by decide

/-- The conjunction over an axis of extent one. -/
theorem reduce_read (m : IVec S256x1x1 1) (init : IVec S_ 1) (h' : S256x1x1.ReducesTo [2] S256x1) (hu : 0 < S_.numel) (p : Fin 256) :
    Host.reduce IntOp.andi m init h' hu (ix2 p (0 : Fin 1))
      = IntOp.andi (m (ix3 p (0 : Fin 1) (0 : Fin 1))) (init (Shape.Idx.first hu)) := by
  rw [Host.reduce_eq_fold_single IntOp.andi m init h' reduces_d2 hu]
  have hone : (Finset.univ : Finset (Fin (S256x1x1.size 2))) = {(0 : Fin 1)} := by decide
  rw [hone]
  refine Finset.fold_singleton.trans ?_
  show IntOp.andi (m _) _ = _
  congr 2
  funext b; refine Fin.ext ?_
  match b with
  | ⟨0, _⟩ => rfl
  | ⟨1, _⟩ => rfl
  | ⟨2, _⟩ => rfl

/-- A target below 32768 is non-negative as a signed word, so the wrap-around of negative positions leaves it unchanged. -/
theorem v4_read (idx : (⟨S256, .i32⟩ : BufTy).Contents (Elt Ideal)) (lab : (⟨S32768, .i32⟩ : BufTy).Contents (Elt Ideal)) (p : Fin 256)
    (h : (val_main_v21 (F := Ideal) idx lab (ix2 p (0 : Fin 1))).toNat < 32768) :
    val_main_call0_v4 (F := Ideal) idx lab (ix2 p (0 : Fin 1)) = val_main_v21 (F := Ideal) idx lab (ix2 p (0 : Fin 1)) := by
  rw [val_main_call0_v4_apply, val_main_call0_v1_apply, val_main_call0_v0_apply, val_main_call0_c_apply]
  generalize val_main_v21 (F := Ideal) idx lab (ix2 p (0 : Fin 1)) = t at h ⊢
  have hn : ¬ IntOp.cmpi .slt t 0#32 = 1#1 := by
    rw [StableHlo.Predicate.slt_iff_toNat (by omega) (by decide)]
    exact Nat.not_lt_zero _
  exact if_neg hn

/-- The start-index table at (p, 0, 0) is the target of query p. -/
theorem v5_read (idx : (⟨S256, .i32⟩ : BufTy).Contents (Elt Ideal)) (lab : (⟨S32768, .i32⟩ : BufTy).Contents (Elt Ideal)) (p : Fin 256)
    (h : (val_main_v21 (F := Ideal) idx lab (ix2 p (0 : Fin 1))).toNat < 32768) :
    val_main_call0_v5 (F := Ideal) idx lab (ix3 p (0 : Fin 1) (0 : Fin 1)) = val_main_v21 (F := Ideal) idx lab (ix2 p (0 : Fin 1)) := by
  rw [val_main_call0_v5_apply]
  have e : idx_main_call0_v5 (ix3 p (0 : Fin 1) (0 : Fin 1)) = ix2 p (0 : Fin 1) := funext fun a => Fin.ext (by
    match a with
    | ⟨0, _⟩ => show ((p.val * 1 + 0) * 1 + 0) / 1 = p.val; omega
    | ⟨1, _⟩ => rfl)
  rw [e, v4_read idx lab p h]

/-- Both bounds tests pass at a target below 32768, so the in-bounds mask is set. -/
theorem mask_read (idx : (⟨S256, .i32⟩ : BufTy).Contents (Elt Ideal)) (lab : (⟨S32768, .i32⟩ : BufTy).Contents (Elt Ideal)) (p : Fin 256)
    (h : (val_main_v21 (F := Ideal) idx lab (ix2 p (0 : Fin 1))).toNat < 32768) :
    val_main_call0_v12 (F := Ideal) idx lab (ix2 p (0 : Fin 1)) = 1#1 := by
  unfold val_main_call0_v12
  rw [reduce_read, val_main_call0_v11_apply, val_main_call0_v7_apply, val_main_call0_v10_apply, val_main_call0_v6_apply,
    val_main_call0_c_2_apply, val_main_call0_v9_apply, val_main_call0_v8_apply, val_main_call0_c_1_apply,
    v5_read idx lab p h, val_main_call0_c_3_apply]
  generalize val_main_v21 (F := Ideal) idx lab (ix2 p (0 : Fin 1)) = t at h ⊢
  have h1 : IntOp.cmpi .sge t 0#32 = 1#1 :=
    (StableHlo.Predicate.sge_iff_toNat (by omega) (by decide)).mpr (Nat.zero_le _)
  have h2 : IntOp.cmpi .sle t 32767#32 = 1#1 :=
    (StableHlo.Predicate.sle_iff_toNat (by omega) (by decide)).mpr (by
      show t.toNat ≤ 32767; omega)
  rw [h1, h2]
  rfl

/-- The exponential stage at (p, c) is the exponential of the scaled similarity. -/
theorem v11_read (X : (⟨S256x2048, .f32⟩ : BufTy).Contents (Elt Ideal)) (C : (⟨S32768x2048, .f32⟩ : BufTy).Contents (Elt Ideal))
    (p : Fin 256) (c : Fin 32768) :
    val_main_v11 (F := Ideal) X C (ix2 p c) = Cert.Loss.ex X C p c := by
  rw [val_main_v11_apply, val_main_v10_apply, val_main_v8_apply, val_main_v9_apply, val_main_cst_apply]
  simp only [Ideal.hostUnary_exp_def, Ideal.hostDivf_def, Ideal.ofBits_def]
  rw [Cert.Loss.div_temp]
  unfold Cert.Loss.ex
  congr 2
  refine Finset.sum_congr rfl fun k _ => ?_
  rw [val_main_v7_apply]
  have e1 : lidx_main_v8 (ix2 p c) k = ix2 p k := funext fun a => Fin.ext (by match a with | ⟨0, _⟩ => rfl | ⟨1, _⟩ => rfl)
  have e2 : idx_main_v7 (ridx_main_v8 (ix2 p c) k) = ix2 c k := funext fun a => Fin.ext (by match a with | ⟨0, _⟩ => rfl | ⟨1, _⟩ => rfl)
  rw [e1, e2]

/-- The logarithm stage at (p, c) is query p's term at column c. -/
theorem v20_read (X : (⟨S256x2048, .f32⟩ : BufTy).Contents (Elt Ideal)) (C : (⟨S32768x2048, .f32⟩ : BufTy).Contents (Elt Ideal))
    (p : Fin 256) (c : Fin 32768) :
    val_main_v20 (F := Ideal) X C (ix2 p c) = Cert.Loss.term X C p c := by
  rw [val_main_v20_apply, val_main_v19_apply, val_main_v17_apply, val_main_v18_apply, val_main_cst_3_apply,
    val_main_v16_apply, val_main_v15_apply, val_main_v14_apply, val_main_cst_2_apply, val_main_v13_apply,
    val_main_v12_apply, val_main_cst_1_apply]
  simp only [Ideal.hostUnary_log_def, Ideal.hostDivf_def, Ideal.ofBits_def, Ideal.addf_def, Ideal.ofBits_zero_f32, zero_add]
  unfold Cert.Loss.term
  rw [v11_read]
  have e : ∀ k : Fin 32768, idx_main_v12 (idx_main_v13 (idx_main_v16 (ix2 p c))) k = ix2 p k := fun k =>
    funext fun a => Fin.ext (by match a with | ⟨0, _⟩ => rfl | ⟨1, _⟩ => rfl)
  simp only [e, v11_read]

/-- Query p's entry of the taken column is its term at its target. -/
theorem row_read (X : (⟨S256x2048, .f32⟩ : BufTy).Contents (Elt Ideal)) (C : (⟨S32768x2048, .f32⟩ : BufTy).Contents (Elt Ideal))
    (idx : (⟨S256, .i32⟩ : BufTy).Contents (Elt Ideal)) (lab : (⟨S32768, .i32⟩ : BufTy).Contents (Elt Ideal)) (p : Fin 256)
    (h : (val_main_v21 (F := Ideal) idx lab (ix2 p (0 : Fin 1))).toNat < 32768) :
    val_main_v22 (F := Ideal) X C idx lab (ix2 p (0 : Fin 1))
      = Cert.Loss.term X C p (Cert.Loss.col (val_main_v21 (F := Ideal) idx lab (ix2 p (0 : Fin 1)))) := by
  rw [val_main_v22_apply, mask_read idx lab p h, select_one]
  unfold val_main_call0_v13
  rw [gather_read, v5_read idx lab p h, v20_read]

/-- A rank-1 index set is its coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The reference's result, as a function of the queries, the clusters, the query positions and the labels, is the loss
    at the targets the labels give the positions, provided each of those targets is below 32768. -/
theorem ref_value (X : (⟨S256x2048, .f32⟩ : BufTy).Contents (Elt Ideal)) (C : (⟨S32768x2048, .f32⟩ : BufTy).Contents (Elt Ideal))
    (idx : (⟨S256, .i32⟩ : BufTy).Contents (Elt Ideal)) (lab : (⟨S32768, .i32⟩ : BufTy).Contents (Elt Ideal))
    (hT : ∀ i : Fin 256, (val_main_v21 (F := Ideal) idx lab (ix2 i (0 : Fin 1))).toNat < 32768) :
    val_main_v26 (F := Ideal) X C idx lab
      = fun _ => Cert.Loss.loss X C (fun i => val_main_v21 (F := Ideal) idx lab (ix2 i (0 : Fin 1))) := by
  funext i
  rw [val_main_v26_apply, val_main_v25_apply, val_main_v24_apply, val_main_cst_4_apply, val_main_cst_5_apply]
  simp only [Ideal.hostNegf_def, Ideal.negf_def, Ideal.hostDivf_def, Ideal.ofBits_def, Ideal.ofBits_zero_f32, zero_add]
  unfold Cert.Loss.loss
  refine congrArg (fun s : EReal => -(Ideal.div s (Ideal.ofBits .f32 0x43800000#32))) ?_
  rw [sum_idx1]
  refine Finset.sum_congr rfl fun a _ => ?_
  rw [val_main_v23_apply]
  have e : idx_main_v23 (ix1 a) = ix2 a (0 : Fin 1) := funext fun b => Fin.ext (by
    match b with
    | ⟨0, _⟩ => exact Nat.div_one _
    | ⟨1, _⟩ => rfl)
  rw [e, row_read X C idx lab a (hT a)]

end Cert.RefLoss

end
-- ==== Proof.PreTargets.lean ====
/-
  Under the precondition every label is a column number, so every target is.
-/
import proofs.«427086_j91233695301908_3_alg».proof.Proof.Gen.Pre_finite_inputs
import proofs.«427086_j91233695301908_3_alg».proof.Proof.Gen.ReferenceIdeal.Read
import Idealize.ShloMosaic.Lib.ReduceAll
import Idealize.ShloMosaic.Lib.StableHlo.Predicate

noncomputable section

namespace Cert.PreTargets

open Idealize.ShloMosaic Idealize.ShloMosaic.ValueIdx

/-- The scalar shape has one index. -/
theorem subsingleton_scalar_idx : Subsingleton Cert.Pre_finite_inputs.S_.Idx :=
  ⟨fun a b => funext fun d => d.elim0⟩

/-- A 32-bit word that is at least 0 and below 32768 as a SIGNED integer is below 32768 as an unsigned one: the sign
    test rules out the upper half of the words, where the signed reading is the unsigned one less 2³². -/
theorem word_lt (w : BitVec 32) (h0 : IntOp.cmpi .sge w 0#32 = 1#1) (h1 : IntOp.cmpi .slt w 32768#32 = 1#1) :
    w.toNat < 32768 := by
  change BitVec.ofBool ((0#32 : BitVec 32).sle w) = 1#1 at h0
  change BitVec.ofBool (w.slt (32768#32 : BitVec 32)) = 1#1 at h1
  rw [StableHlo.Predicate.ofBool_eq_one_iff] at h0 h1
  simp only [BitVec.sle, BitVec.slt, decide_eq_true_eq] at h0 h1
  have e0 : (0#32 : BitVec 32).toInt = 0 := by decide
  have e1 : (32768#32 : BitVec 32).toInt = 32768 := by decide
  rw [e0] at h0
  rw [e1] at h1
  rw [BitVec.toInt_eq_toNat_cond] at h0 h1
  have hw := w.isLt
  split at h0 <;> omega

/-- THE PRECONDITION DECODED at one label. Its value at the scalar index is a conjunction whose last conjunct is the
    conjunction over all labels of (0 ≤ label) and (label < 32768), both signed; a conjunction of bits that is 1 has
    every bit 1. The three conjuncts about the float inputs are dropped. -/
theorem labels_lt {F : FTy → Type} [FloatOps F]
    (X0 : FVec F Cert.Pre_finite_inputs.S256x2048 .f32) (X1 X2 : FVec F Cert.Pre_finite_inputs.S32768x2048 .f32)
    (idx : IVec Cert.Pre_finite_inputs.S256 32) (lab gi : IVec Cert.Pre_finite_inputs.S32768 32)
    (h : Cert.Pre_finite_inputs.fn (F := F) X0 X1 X2 idx lab gi = fun _ => 1#1)
    (j : Cert.Pre_finite_inputs.S32768.Idx) : (lab j).toNat < 32768 := by
  have e := congrFun h ValueIdx.ix0
  dsimp only [Cert.Pre_finite_inputs.fn, Cert.Pre_finite_inputs.fn_part1] at e
  have eall := (IntOp.andi_eq_one.1 e).2
  haveI := subsingleton_scalar_idx
  have ej := Host.reduce_andi_all _ _ _ _ _ eall j
  obtain ⟨hge, hlt⟩ := IntOp.andi_eq_one.1 ej
  exact word_lt (lab j) hge hlt

/-- The precondition's last conjunct says every label lies in [0, 32768); a target is a label (the labels read at a
    clamped position), so it is below 32768. Stated for the float inputs of any instance. -/
theorem targets_lt {F : FTy → Type} [FloatOps F]
    (X0 : FVec F Cert.Pre_finite_inputs.S256x2048 .f32) (X1 X2 : FVec F Cert.Pre_finite_inputs.S32768x2048 .f32)
    (idx : IVec Cert.Pre_finite_inputs.S256 32) (lab gi : IVec Cert.Pre_finite_inputs.S32768 32)
    (h : Cert.Pre_finite_inputs.fn (F := F) X0 X1 X2 idx lab gi = fun _ => 1#1) (i : Fin 256) :
    (Cert.ReferenceIdeal.Read.val_main_v21 (F := F) idx lab (ix2 i (0 : Fin 1))).toNat < 32768 := by
  -- the column at (i, 0) is the take at position i
  have hidx : Cert.ReferenceIdeal.Read.idx_main_v21 (ix2 i (0 : Fin 1)) = Shape.Idx.ofFin i := by
    funext a
    match a with
    | ⟨0, _⟩ => rfl
  rw [Cert.ReferenceIdeal.Read.val_main_v21_apply, hidx]
  unfold Cert.ReferenceIdeal.Read.val_main_v6
  -- the take reads the labels at a clamped position: the target is a label
  rw [StableHlo.Predicate.gather_take _ rfl rfl rfl rfl _ _ i (by decide)]
  exact labels_lt X0 X1 X2 idx lab gi h _

end Cert.PreTargets

end
-- ==== Proof.lean ====
/-
  The certificate: a two-core streamed kernel for a contrastive memory loss against its plain reference.

  Both programs take 256 queries and 32768 clusters of 2048 features, positions into a table of labels, and the labels.
  The loss is minus the mean over the queries of log (e_i(t_i) / (sum_j e_i(j) + eps) + eps), where e_i(j) is the
  exponential of the queries-clusters inner product divided by the temperature and t_i is the label at query i's
  position. The reference forms every e_i(j), normalises whole rows and takes column t_i. The kernel streams the clusters
  in 32 blocks of 1024 over two cores, keeps per core the running row sums of exponentials and of the exponentials masked
  to column t_i, and the host adds the two cores' sums and finishes the quotient, the logarithm and the mean.

  On the extended reals the two agree: a sum may be cut into blocks and regrouped freely; the masked sums pick the one
  exponential at column t_i because, under the precondition, every label and hence every target is a column number; and
  the kernel's multiplier, named the exact reciprocal of the temperature's binary value, acts as the reference's division.
  The frames of the two kernel programs are the generated ones; the reference's frame is its generated run.
-/
import proofs.«427086_j91233695301908_3_alg».proof.Defs
import proofs.«427086_j91233695301908_3_alg».proof.Proof.Gen.Kernel
import proofs.«427086_j91233695301908_3_alg».proof.Proof.Gen.Kernel.Frame
import proofs.«427086_j91233695301908_3_alg».proof.Proof.Gen.KernelIdeal
import proofs.«427086_j91233695301908_3_alg».proof.Proof.Gen.KernelIdeal.Frame
import proofs.«427086_j91233695301908_3_alg».proof.Proof.Gen.ReferenceIdeal
import proofs.«427086_j91233695301908_3_alg».proof.Proof.Gen.ReferenceIdeal.Run
import proofs.«427086_j91233695301908_3_alg».proof.Proof.Gen.ReferenceIdeal.Read
import proofs.«427086_j91233695301908_3_alg».proof.Proof.Gen.Pre_finite_inputs
import proofs.«427086_j91233695301908_3_alg».proof.Proof.KResult
import proofs.«427086_j91233695301908_3_alg».proof.Proof.RefLoss
import proofs.«427086_j91233695301908_3_alg».proof.Proof.PreTargets
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the multiplier 20.0 is named the exact reciprocal of the temperature's value. -/
theorem preserves : Cert.preserves_Kernel_KernelIdeal :=
  IdealRules.named_const.statement Cert.KernelIdeal.κ "inv_temp" .f32 0x41A00000#32 ((268435456 / 13421773 : ℝ) : EReal) rfl

open Cert.KernelIdeal.Blocks Cert.KernelIdeal.Accum in
/-- The queries the kernel works on are the queries argument: the change of float format is the identity. -/
theorem queries_eq (m : (ℓ : Loc Cert.KernelIdeal.nD Cert.KernelIdeal.τ Cert.KernelIdeal.sig) → Buf (Elt Ideal) ℓ)
    (c : Dev Cert.KernelIdeal.nD) :
    X m c = m ((c.tc : Thread Cert.KernelIdeal.nD Cert.KernelIdeal.τ).loc Cert.KernelIdeal.main_arg0) := by
  show qarr m c = _
  rw [qarr_eq]
  rfl

open Cert.KernelIdeal.Blocks Cert.KernelIdeal.Accum in
/-- Both programs end at the loss of the same queries, clusters and targets. -/
theorem algebraic : Cert.algebraic_KernelIdeal_ReferenceIdeal := by
  intro m ρ m' ρ' hpre hagree
  refine ⟨fun c => (fun _ => Cert.Loss.kloss (X m c) (C m c) (T m c)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.2.1, (hagree c).2.2.2.1, (hagree c).2.2.2.2.1]
  -- every target is a column number
  have hT : ∀ i : Fin 256, (Cert.ReferenceIdeal.Read.val_main_v21 (F := Ideal)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (ix2 i (0 : Fin 1))).toNat < 32768 :=
    fun i => Cert.PreTargets.targets_lt _ _ _ _ _ _ (hpre c) i
  rw [Cert.RefLoss.ref_value _ _ _ _ hT]
  funext _
  have hTk : ∀ r, (T m c r).toNat < 32768 := fun r => by
    show (tarr m c (ix2 r (0 : Fin 1))).toNat < 32768
    rw [tarr_eq]; exact hT r
  show _ = Cert.Loss.kloss (X m c) (C m c) (T m c)
  rw [Cert.Loss.kloss_eq_loss _ _ _ hTk, queries_eq, show C m c = _ from carr_eq m c]
  refine congrArg (Cert.Loss.loss _ _) (funext fun r => ?_)
  show _ = tarr m c (ix2 r (0 : Fin 1))
  rw [tarr_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
